-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S131072x3 : Shape := ⟨2, ![131072, 3]⟩
abbrev S1000 : Shape := ⟨1, ![1000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1000 : S_.BroadcastsInDim S1000 (![] : Fin 0 → Fin S1000.rank)
  reducesTo_S1000_S_d0 : S1000.ReducesTo [0] S_
  bcast_S_S131072x3 : S_.BroadcastsInDim S131072x3 (![] : Fin 0 → Fin S131072x3.rank)
  reducesTo_S131072x3_S_d0_1 : S131072x3.ReducesTo [0, 1] S_

variable [Facts]

def fn {F : FTy → Type} [FloatOps F] (main_arg0 : FVec F S8192x512 .f32) (main_arg1 : IVec S8192 32) (main_arg2 : IVec S131072x3 32) (main_arg3 : FVec F S1000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1000 .f32 := Host.absf main_arg3
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S131072x3 32 := broadcastInDim S131072x3 ![] bcast_S_S131072x3 main_c_2
  let main_v10 : IVec S131072x3 1 := cmpi .sge main_arg2 main_v9
  let main_c_3 : IVec S_ 32 := constantI S_ 32 8192#32
  let main_v11 : IVec S131072x3 32 := broadcastInDim S131072x3 ![] bcast_S_S131072x3 main_c_3
  let main_v12 : IVec S131072x3 1 := cmpi .slt main_arg2 main_v11
  let main_v13 : IVec S131072x3 1 := andi main_v10 main_v12
  let main_c_4 : IVec S_ 1 := constantI S_ 1 1#1
  let main_v14 : IVec S_ 1 := (fun x v => Host.reduce IntOp.andi x v reducesTo_S131072x3_S_d0_1 h_S_) main_v13 main_c_4
  let main_v15 : IVec S_ 1 := andi main_v8 main_v14
  main_v15
-- ==== Kernel.lean ====
abbrev S8192x512 : Shape := ⟨2, ![8192, 512]⟩
abbrev S8192 : Shape := ⟨1, ![8192]⟩
abbrev S131072x3 : Shape := ⟨2, ![131072, 3]⟩
abbrev S1000 : Shape := ⟨1, ![1000]⟩
abbrev S131072x1 : Shape := ⟨2, ![131072, 1]⟩
abbrev S131072 : Shape := ⟨1, ![131072]⟩
abbrev S_ : Shape := ⟨0, ![]⟩
abbrev S2x1x1 : Shape := ⟨3, ![2, 1, 1]⟩
abbrev S256x3 : Shape := ⟨2, ![256, 3]⟩
abbrev S256x1 : Shape := ⟨2, ![256, 1]⟩
abbrev S1x1x1 : Shape := ⟨3, ![1, 1, 1]⟩
abbrev S512x8192 : Shape := ⟨2, ![512, 8192]⟩
abbrev S1x8192 : Shape := ⟨2, ![1, 8192]⟩
abbrev S256x8192 : Shape := ⟨2, ![256, 8192]⟩
abbrev S512x512 : Shape := ⟨2, ![512, 512]⟩
abbrev S256x512 : Shape := ⟨2, ![256, 512]⟩
abbrev S256 : Shape := ⟨1, ![256]⟩
abbrev S1 : Shape := ⟨1, ![1]⟩
abbrev S1x1 : Shape := ⟨2, ![1, 1]⟩

abbrev nBuf : Space → Nat
  | .hbm => 38
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S131072x3, .i32⟩
  | .hbm, ⟨3, _⟩ => ⟨S1000, .f32⟩
  | .hbm, ⟨4, _⟩ => ⟨S131072x1, .i32⟩
  | .hbm, ⟨5, _⟩ => ⟨S131072, .i32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072, .f32⟩
  | .hbm, ⟨24, _⟩ => ⟨S131072x1, .f32⟩
  | .hbm, ⟨25, _⟩ => ⟨S8192x512, .bf16⟩
  | .hbm, ⟨26, _⟩ => ⟨S2x1x1, .f32⟩
  | .hbm, ⟨27, _⟩ => ⟨S2x1x1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S256x3, .i32⟩
  | .local _ .vmem, ⟨1, _⟩ => ⟨S256x3, .i32⟩
  | .local _ .vmem, ⟨2, _⟩ => ⟨S256x1, .f32⟩
  | .local _ .vmem, ⟨3, _⟩ => ⟨S256x1, .f32⟩
  | .local _ .vmem, ⟨4, _⟩ => ⟨S8192x512, .bf16⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S512x8192, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_cst : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S131072x3_S131072x1_0_0 : S131072x3.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  shapeCasts_S131072_S131072x1 : S131072.ShapeCasts S131072x1
  bitsLt_bf16_f32 : FTy.bits .bf16 < FTy.bits .f32
  inb_S1x1x1_S1x1x1_0_0_0 : ∀ a, (![0, 0, 0] : Fin 3 → Nat) a + S1x1x1.size a ≤ S1x1x1.size a
  h_S1x1x1 : 0 < S1x1x1.numel
  inb_S256x3_S256x3_0_0 : ∀ a, (![0, 0] : Fin 2 → Nat) a + S256x3.size a ≤ S256x3.size a
  h_S256x3 : 0 < S256x3.numel
  slices_S256x3_o0_0_S256x1 : S256x3.Slices ![0, 0] S256x1
  slices_S256x3_o0_1_S256x1 : S256x3.Slices ![0, 1] S256x1
  slices_S256x3_o0_2_S256x1 : S256x3.Slices ![0, 2] S256x1
  iota_S1x8192_d1_w32 : S1x8192.Iotas .tc 32 [1]
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  broadcasts_S256x1_S256x8192 : S256x1.Broadcasts S256x8192
  broadcasts_S1x8192_S256x8192 : S1x8192.Broadcasts S256x8192
  natLt_1_32 : 1 < 32
  inb_S512x8192_S256x8192_0_0 : ∀ a, (![0, 0] : Fin 2 → Nat) a + S256x8192.size a ≤ S512x8192.size a
  h_S256x8192 : 0 < S256x8192.numel
  shapeCasts_S256x8192_S256x8192 : S256x8192.ShapeCasts S256x8192
  packedbf16_S512x8192_S256x8192_0_0 : (Rect.unit (s := S512x8192) ![0, 0] S256x8192.size inb_S512x8192_S256x8192_0_0).PackedRows (EltTy.packing .bf16)
  inb_S512x8192_S256x8192_256_0 : ∀ a, (![256, 0] : Fin 2 → Nat) a + S256x8192.size a ≤ S512x8192.size a
  packedbf16_S512x8192_S256x8192_256_0 : (Rect.unit (s := S512x8192) ![256, 0] S256x8192.size inb_S512x8192_S256x8192_256_0).PackedRows (EltTy.packing .bf16)
  inb_S512x8192_S512x8192_0_0 : ∀ a, (![0, 0] : Fin 2 → Nat) a + S512x8192.size a ≤ S512x8192.size a
  h_S512x8192 : 0 < S512x8192.numel
  slices_S512x512_o0_0_S256x512 : S512x512.Slices ![0, 0] S256x512
  slices_S512x512_o256_0_S256x512 : S512x512.Slices ![256, 0] S256x512
  reduces_S256x512_S256 : S256x512.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x1_S1 : S256x1.Reduces [0] S1
  shapeCasts_S1_S1x1 : S1.ShapeCasts S1x1
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  gather_S8192_S131072x1_S131072_n_0_n_n_0_1_1_wf : GatherDims.WF S8192 S131072x1 S131072 [] [0] [] [0] [] 1 ![1]
  gather_S1000_S131072x1_S131072_n_0_n_n_0_1_1_wf : GatherDims.WF S1000 S131072x1 S131072 [] [0] [] [0] [] 1 ![1]
  dot_S512x8192_S8192x512_S512x512_1_0_0_1_n_n_wf : DotDims.WF S512x8192 S8192x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S131072x3.size a
  hwx0_0 : ∀ i : grid0.Coords, EltTy.bits .i32 = 32 ∨ (Rect.block (s := S131072x3) S256x3.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S131072x1.size a
  hwx0_1 : ∀ i : grid0.Coords, EltTy.bits .f32 = 32 ∨ (Rect.block (s := S131072x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x512.size a ≤ S8192x512.size a
  hwx0_2 : ∀ i : grid0.Coords, EltTy.bits .bf16 = 32 ∨ (Rect.block (s := S8192x512) S8192x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S1000_S131072x1_S131072_n_0_n_n_0_1_1 : GatherDims S1000 S131072x1 S131072 where
  offsetDims := []
  collapsedSliceDims := [0]
  operandBatchingDims := []
  startIndicesBatchingDims := []
  startIndexMap := [0]
  indexVectorDim := 1
  sliceSizes := ![1]
  wf := gather_S1000_S131072x1_S131072_n_0_n_n_0_1_1_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf

abbrev win0_0 : Pipeline.Window sig grid0 :=
  Pipeline.Window.ofSpec (Memref.whole main_arg2) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8192x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S131072x3 : Shape := ⟨2, ![131072, 3]⟩
abbrev S1000 : Shape := ⟨1, ![1000]⟩
abbrev S131072x1 : Shape := ⟨2, ![131072, 1]⟩
abbrev S131072 : Shape := ⟨1, ![131072]⟩
abbrev S_ : Shape := ⟨0, ![]⟩
abbrev S131072x512 : Shape := ⟨2, ![131072, 512]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S131072x3, .i32⟩
  | .hbm, ⟨3, _⟩ => ⟨S1000, .f32⟩
  | .hbm, ⟨4, _⟩ => ⟨S131072x1, .i32⟩
  | .hbm, ⟨5, _⟩ => ⟨S131072, .i32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x512, .f32⟩
  | .hbm, ⟨15, _⟩ => ⟨S131072x1, .i32⟩
  | .hbm, ⟨16, _⟩ => ⟨S131072, .i32⟩
  | .hbm, ⟨17, _⟩ => ⟨S_, .i32⟩
  | .hbm, ⟨18, _⟩ => ⟨S131072, .i32⟩
  | .hbm, ⟨19, _⟩ => ⟨S131072, .i1⟩
  | .hbm, ⟨20, _⟩ => ⟨S_, .i32⟩
  | .hbm, ⟨21, _⟩ => ⟨S131072, .i32⟩
  | .hbm, ⟨22, _⟩ => ⟨S131072, .i32⟩
  | .hbm, ⟨23, _⟩ => ⟨S131072, .i32⟩
  | .hbm, ⟨24, _⟩ => ⟨S131072x1, .i32⟩
  | .hbm, ⟨25, _⟩ => ⟨S131072x512, .f32⟩
  | .hbm, ⟨26, _⟩ => ⟨S131072x1, .i32⟩
  | .hbm, ⟨27, _⟩ => ⟨S131072, .i32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x512, .f32⟩
  | .hbm, ⟨37, _⟩ => ⟨S131072x512, .f32⟩
  | .hbm, ⟨38, _⟩ => ⟨S131072x512, .f32⟩
  | .hbm, ⟨39, _⟩ => ⟨S_, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .f32⟩
  | .hbm, ⟨44, _⟩ => ⟨S131072, .f32⟩
  | .hbm, ⟨45, _⟩ => ⟨S131072x512, .f32⟩
  | .hbm, ⟨46, _⟩ => ⟨S131072x512, .f32⟩
  | .hbm, ⟨47, _⟩ => ⟨S_, .f32⟩
  | .hbm, ⟨48, _⟩ => ⟨S131072, .f32⟩
  | .hbm, ⟨49, _⟩ => ⟨S_, .f32⟩
  | .hbm, ⟨50, _⟩ => ⟨S131072, .f32⟩
  | .hbm, ⟨51, _⟩ => ⟨S131072, .f32⟩
  | .hbm, ⟨52, _⟩ => ⟨S131072, .f32⟩
  | .hbm, ⟨53, _⟩ => ⟨S131072x1, .i32⟩
  | .hbm, ⟨54, _⟩ => ⟨S131072, .i32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S131072x1, .i32⟩
  | .hbm, ⟨63, _⟩ => ⟨S131072, .i32⟩
  | .hbm, ⟨64, _⟩ => ⟨S_, .i32⟩
  | .hbm, ⟨65, _⟩ => ⟨S131072, .i32⟩
  | .hbm, ⟨66, _⟩ => ⟨S131072, .i1⟩
  | .hbm, ⟨67, _⟩ => ⟨S_, .i32⟩
  | .hbm, ⟨68, _⟩ => ⟨S131072, .i32⟩
  | .hbm, ⟨69, _⟩ => ⟨S131072, .i32⟩
  | .hbm, ⟨70, _⟩ => ⟨S131072, .i32⟩
  | .hbm, ⟨71, _⟩ => ⟨S131072x1, .i32⟩
  | .hbm, ⟨72, _⟩ => ⟨S131072, .f32⟩
  | .hbm, ⟨73, _⟩ => ⟨S131072, .f32⟩
  | .hbm, ⟨74, _⟩ => ⟨S_, .f32⟩
  | .hbm, ⟨75, _⟩ => ⟨S131072, .f32⟩
  | .hbm, ⟨76, _⟩ => ⟨S131072, .f32⟩
  | .hbm, ⟨77, _⟩ => ⟨S_, .f32⟩
  | .hbm, ⟨78, _⟩ => ⟨S131072, .f32⟩
  | .hbm, ⟨79, _⟩ => ⟨S131072, .f32⟩
  | .hbm, ⟨80, _⟩ => ⟨S131072, .f32⟩
  | .hbm, ⟨81, _⟩ => ⟨S_, .f32⟩
  | .hbm, ⟨82, _⟩ => ⟨S131072, .f32⟩
  | .hbm, ⟨83, _⟩ => ⟨S131072, .f32⟩
  | .hbm, ⟨84, _⟩ => ⟨S_, .f32⟩
  | .hbm, ⟨85, _⟩ => ⟨S131072, .f32⟩
  | .hbm, ⟨86, _⟩ => ⟨S131072, .f32⟩
  | .hbm, ⟨87, _⟩ => ⟨S_, .f32⟩
  | .hbm, ⟨88, _⟩ => ⟨S131072, .f32⟩
  | .hbm, ⟨89, _⟩ => ⟨S131072, .i1⟩
  | .hbm, ⟨90, _⟩ => ⟨S_, .f32⟩
  | .hbm, ⟨91, _⟩ => ⟨S131072, .f32⟩
  | .hbm, ⟨92, _⟩ => ⟨S131072, .i1⟩
  | .hbm, ⟨93, _⟩ => ⟨S131072, .i1⟩
  | .hbm, ⟨94, _⟩ => ⟨S131072, .i32⟩
  | .hbm, ⟨95, _⟩ => ⟨S_, .i32⟩
  | .hbm, ⟨96, _⟩ => ⟨S_, .i32⟩
  | .hbm, ⟨97, _⟩ => ⟨S_, .f32⟩
  | .hbm, ⟨98, _⟩ => ⟨S131072, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .i1⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  slices_S131072x3_S131072x1_0_0 : S131072x3.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x3_S131072x1_0_1 : S131072x3.Slices ![0, 1] S131072x1
  slices_S131072x3_S131072x1_0_2 : S131072x3.Slices ![0, 2] S131072x1
  reducesTo_S131072x512_S131072_d1 : S131072x512.ReducesTo [1] S131072
  h_S_ : 0 < S_.numel
  natLt_1_32 : 1 < 32
  reducesTo_S131072_S_d0 : S131072.ReducesTo [0] S_
  gather_S8192x512_S131072x1_S131072x512_1_0_n_n_0_1_1512_wf : GatherDims.WF S8192x512 S131072x1 S131072x512 [1] [0] [] [0] [] 1 ![1, 512]
  gather_S8192_S131072x1_S131072_n_0_n_n_0_1_1_wf : GatherDims.WF S8192 S131072x1 S131072 [] [0] [] [0] [] 1 ![1]
  gather_S1000_S131072x1_S131072_n_0_n_n_0_1_1_wf : GatherDims.WF S1000 S131072x1 S131072 [] [0] [] [0] [] 1 ![1]

variable [Facts₀]

def gather_S8192x512_S131072x1_S131072x512_1_0_n_n_0_1_1512 : GatherDims S8192x512 S131072x1 S131072x512 where
  offsetDims := [1]
  collapsedSliceDims := [0]
  operandBatchingDims := []
  startIndicesBatchingDims := []
  startIndexMap := [0]
  indexVectorDim := 1
  sliceSizes := ![1, 512]
  wf := gather_S8192x512_S131072x1_S131072x512_1_0_n_n_0_1_1512_wf
def gather_S8192_S131072x1_S131072_n_0_n_n_0_1_1 : GatherDims S8192 S131072x1 S131072 where
  offsetDims := []
  collapsedSliceDims := [0]
  operandBatchingDims := []
  startIndicesBatchingDims := []
  startIndexMap := [0]
  indexVectorDim := 1
  sliceSizes := ![1]
  wf := gather_S8192_S131072x1_S131072_n_0_n_n_0_1_1_wf
def gather_S1000_S131072x1_S131072_n_0_n_n_0_1_1 : GatherDims S1000 S131072x1 S131072 where
  offsetDims := []
  collapsedSliceDims := [0]
  operandBatchingDims := []
  startIndicesBatchingDims := []
  startIndexMap := [0]
  indexVectorDim := 1
  sliceSizes := ![1]
  wf := gather_S1000_S131072x1_S131072_n_0_n_n_0_1_1_wf

class Facts : Prop extends Facts₀ where

variable [Facts]
-- ==== Proof.PreDecode.lean ====
/-
  What the precondition says, decoded: every entry of the table is a real number, and every entry of the triplet
  list, read as a signed integer, names a row of the table:  0 <= t < 8192 .
-/
import proofs.«408964_j12395275616919_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.ValueIdx

namespace Cert.PreDecode

variable [Cert.Pre_finite_inputs.Facts]

/-- The scalar shape has one index. -/
instance : Subsingleton Cert.Pre_finite_inputs.S_.Idx := ⟨fun a b => funext fun d => d.elim0⟩

/-- The pattern 0x7F800000 (exponent all ones, fraction zero, sign clear) denotes +∞. -/
theorem ofBits_inf : Ideal.ofBits .f32 0x7F800000#32 = (⊤ : EReal) := by
  simp [Ideal.ofBits, Ideal.ieee]

/-- An extended real whose absolute value  max x (-x)  is below +∞ is a real number. -/
theorem real_of_abs_lt_top (x : EReal) (h : max x (-x) < (⊤ : EReal)) : ∃ e : ℝ, x = ((e : ℝ) : EReal) := by
  induction x using EReal.rec with
  | bot => simp at h
  | coe r => exact ⟨r, rfl⟩
  | top => simp at h

/-- The precondition, all ones, gives: the table's entries are real numbers, and the triplets' entries are row numbers. -/
theorem decode (x0 : FVec Ideal Cert.Pre_finite_inputs.S8192x512 .f32) (x1 : IVec Cert.Pre_finite_inputs.S8192 32)
    (x2 : IVec Cert.Pre_finite_inputs.S131072x3 32) (x3 : FVec Ideal Cert.Pre_finite_inputs.S1000 .f32)
    (h : Cert.Pre_finite_inputs.fn (F := Ideal) x0 x1 x2 x3 = fun _ => 1#1) :
    (∀ i, ∃ e : ℝ, x0 i = ((e : ℝ) : EReal))
    ∧ (∀ (i : Fin 131072) (j : Fin 3), 0 ≤ (x2 (ix2 i j)).toInt ∧ (x2 (ix2 i j)).toInt < 8192) := by
  have h0 := congrFun h ix0
  unfold Cert.Pre_finite_inputs.fn at h0
  dsimp only at h0
  change IntOp.andi (IntOp.andi _ _) _ = 1#1 at h0
  obtain ⟨h12, h3⟩ := IntOp.andi_eq_one.1 h0
  obtain ⟨h1, _⟩ := IntOp.andi_eq_one.1 h12
  refine ⟨fun i => ?_, fun i j => ?_⟩
  · -- entry i of the table: |x0 i| < +∞
    have e := Host.reduce_andi_all _ _ _ _ _ h1 i
    change Ideal.cmp .olt (max (x0 i) (-(x0 i))) (broadcastInDim _ _ _ _ i) = 1#1 at e
    rw [StableHlo.Predicate.bcast_scalar _ Cert.Pre_finite_inputs.Facts.h_S_, constant_apply, ofBits_inf] at e
    apply real_of_abs_lt_top
    simpa only [Ideal.cmp, StableHlo.Predicate.ofBool_eq_one_iff, decide_eq_true_eq] using e
  · -- entry (i, j) of the triplet list: 0 <= t and t < 8192, signed
    have e := Host.reduce_andi_all _ _ _ _ _ h3 (ix2 i j)
    change IntOp.andi (IntOp.cmpi .sge (x2 (ix2 i j)) (broadcastInDim _ _ _ _ (ix2 i j)))
      (IntOp.cmpi .slt (x2 (ix2 i j)) (broadcastInDim _ _ _ _ (ix2 i j))) = 1#1 at e
    rw [StableHlo.Predicate.bcast_scalar _ Cert.Pre_finite_inputs.Facts.h_S_,
      StableHlo.Predicate.bcast_scalar _ Cert.Pre_finite_inputs.Facts.h_S_] at e
    obtain ⟨ege, elt⟩ := IntOp.andi_eq_one.1 e
    have hge : (0#32 : BitVec 32).toInt ≤ (x2 (ix2 i j)).toInt := IntOp.cmpi_sge.1 ege
    have hlt : (x2 (ix2 i j)).toInt < (8192#32 : BitVec 32).toInt := IntOp.cmpi_slt.1 elt
    have z0 : (0#32 : BitVec 32).toInt = 0 := by decide
    have z1 : (8192#32 : BitVec 32).toInt = 8192 := by decide
    rw [z0] at hge
    rw [z1] at hlt
    exact ⟨hge, hlt⟩

end Cert.PreDecode

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.RefLemmas.lean ====
/-
  Three facts the reference's gathers and its count of active triplets need.

  A gather of whole rows of the  [8192, 512]  table at a column of 131072 start indices reads, at (i, d), the table at
  row  clamp(index i)  and column d, the index read as a signed integer and clamped into [0, 8191].  An index that
  already names a row,  0 <= s < 8192 , is left alone by the wrap of negative indices and by the clamp.  And a sum of
  131072 words that are each 0 or 1, taken in 32-bit integers from 0, does not wrap: read as an integer it is the
  number of ones.
-/
import proofs.«408964_j12395275616919_3_alg».proof.Proof.Gen.ReferenceIdeal
import proofs.«408964_j12395275616919_3_alg».proof.Proof.LibIndexWrap
import Idealize.ShloMosaic.PureOps.Ideal
import Idealize.ShloMosaic.Lib.ValueIdx
import Idealize.ShloMosaic.Lib.StableHlo.Predicate

noncomputable section

open Idealize.ShloMosaic Idealize.ShloMosaic.ValueIdx

namespace Cert.ReferenceIdeal.RefLemmas

open Cert.ReferenceIdeal Cert.ReferenceIdeal.Gen

/-- The row gather read at (i, d): the table at the clamped start index of triplet i, column d. -/
theorem gather_row {α : Type} (x : S8192x512.Idx → α) (idx : IVec S131072x1 32) (i : Fin 131072) (d : Fin 512) :
    Host.gather gather_S8192x512_S131072x1_S131072x512_1_0_n_n_0_1_1512 x idx (ix2 i d)
      = x (ix2 (⟨min (idx (ix2 i (0 : Fin 1))).toInt.toNat 8191, by omega⟩ : Fin 8192) d) := by
  unfold Host.gather
  congr 1
  funext a
  refine Fin.ext ?_
  match a with
  | ⟨0, _⟩ =>
    -- axis 0 is collapsed and carries the start index: no batching part, no offset part
    show GatherDims.start gather_S8192x512_S131072x1_S131072x512_1_0_n_n_0_1_1512 (ix2 i d) idx 0
      + GatherDims.batchCoord gather_S8192x512_S131072x1_S131072x512_1_0_n_n_0_1_1512 (ix2 i d) 0
      + GatherDims.offCoord gather_S8192x512_S131072x1_S131072x512_1_0_n_n_0_1_1512 (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S8192x512_S131072x1_S131072x512_1_0_n_n_0_1_1512).startIndexMap from
      List.mem_singleton.mpr rfl)]
    have hsi : GatherDims.siIdx gather_S8192x512_S131072x1_S131072x512_1_0_n_n_0_1_1512 (ix2 i d)
        ⟨List.idxOf (0 : Fin 2) (gather_S8192x512_S131072x1_S131072x512_1_0_n_n_0_1_1512).startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- axis 1 is the offset axis: start 0, no batching part, offset the column d
    show GatherDims.start gather_S8192x512_S131072x1_S131072x512_1_0_n_n_0_1_1512 (ix2 i d) idx 1
      + GatherDims.batchCoord gather_S8192x512_S131072x1_S131072x512_1_0_n_n_0_1_1512 (ix2 i d) 1
      + GatherDims.offCoord gather_S8192x512_S131072x1_S131072x512_1_0_n_n_0_1_1512 (ix2 i d) 1 = d.val
    rw [GatherDims.batchCoord_eq_zero _ _ _ List.not_mem_nil]
    have hst : GatherDims.start gather_S8192x512_S131072x1_S131072x512_1_0_n_n_0_1_1512 (ix2 i d) idx 1 = 0 := by
      unfold GatherDims.start
      rw [dif_neg (show ¬ ((1 : Fin 2) ∈ (gather_S8192x512_S131072x1_S131072x512_1_0_n_n_0_1_1512).startIndexMap) from by
        decide)]
    have hoff : GatherDims.offCoord gather_S8192x512_S131072x1_S131072x512_1_0_n_n_0_1_1512 (ix2 i d) 1 = d.val := by
      unfold GatherDims.offCoord
      rw [dif_pos (show (1 : Fin 2) ∈ (gather_S8192x512_S131072x1_S131072x512_1_0_n_n_0_1_1512).sKept from by decide)]
      rfl
    rw [hst, hoff]
    omega

/-- A word that names a row is not moved by the wrap of negative indices. -/
theorem wrap_of_range (w : BitVec 32) (h0 : 0 ≤ w.toInt) (h1 : w.toInt < 8192) :
    Scalar.select (IntOp.cmpi .slt w 0#32) (IntOp.addi w 8192#32) w = w := by
  have hz : (0#32 : BitVec 32).toInt = 0 := by decide
  unfold Scalar.select
  rw [if_neg]
  intro hs
  have hlt := IntOp.cmpi_slt.1 hs
  rw [hz] at hlt
  omega

/-- A 32-bit word whose signed value is not negative has that value equal to its unsigned value. -/
theorem toInt_eq_toNat_of_nonneg (w : BitVec 32) (h0 : 0 ≤ w.toInt) : w.toInt = (w.toNat : Int) := by
  have hlt := w.isLt
  have hc := BitVec.toInt_eq_toNat_cond w
  split at hc <;> omega

/-- Nor by the clamp: the clamped index is the word's own row number. -/
theorem clamp_of_range (w : BitVec 32) (h0 : 0 ≤ w.toInt) (h1 : w.toInt < 8192) :
    min w.toInt.toNat 8191 = w.toNat % 8192 := by
  have hw := toInt_eq_toNat_of_nonneg w h0
  rw [hw] at h1 ⊢
  omega

/-- The coercion of the reals into the extended reals goes through a finite sum. -/
theorem coe_sum_ereal {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A one-bit flag widened to 32 bits reads, signed, as 0 or 1. -/
theorem flag_toInt (c : BitVec 1) : (c.setWidth 32).toInt = 0 ∨ (c.setWidth 32).toInt = 1 := by
  have h2 : c.toNat < 2 := c.isLt
  have hn : (c.setWidth 32).toNat = c.toNat := by
    rw [BitVec.toNat_setWidth]; exact Nat.mod_eq_of_lt (by omega)
  have hc := BitVec.toInt_eq_toNat_cond (c.setWidth 32)
  rw [hn] at hc
  split at hc <;> omega

/-- A left fold by 32-bit addition over words that each read as 0 or 1, from a word that reads as a
    nonnegative integer, does not wrap while that integer plus the number of words stays below 2^31:
    read as an integer the result is the start plus the sum of the words. -/
theorem foldl_addi_toInt {ι : Type} (w : ι → BitVec 32) (hw : ∀ n, (w n).toInt = 0 ∨ (w n).toInt = 1) :
    ∀ (l : List ι) (acc : BitVec 32), 0 ≤ acc.toInt → acc.toInt + (l.length : Int) < 2 ^ 31 →
      (l.foldl (fun r n => IntOp.addi r (w n)) acc).toInt = acc.toInt + (l.map fun n => (w n).toInt).sum
  | [], acc, _, _ => by simp
  | a :: l, acc, h0, hlen => by
    rw [List.foldl_cons]
    have ha := hw a
    simp only [List.length_cons] at hlen
    have hstep : (IntOp.addi acc (w a)).toInt = acc.toInt + (w a).toInt := by
      rw [IntOp.addi, BitVec.toInt_add]
      exact Int.bmod_eq_of_le (by omega) (by omega)
    rw [foldl_addi_toInt w hw l _ (by rw [hstep]; omega) (by rw [hstep]; omega), hstep, List.map_cons, List.sum_cons]
    omega

/-- A rank-one index set is its one coordinate. -/
def idxEquiv1 {n : Nat} : Fin n ≃ (⟨1, ![n]⟩ : Shape).Idx where
  toFun := ix1
  invFun i := i 0
  left_inv _ := rfl
  right_inv i := (eq_ix1 i).symm

/-- The integer sum of 131072 one-bit flags widened to 32 bits, from 0: read as an integer, the sum of the flags. -/
theorem count_flags_int (b : S131072.Idx → BitVec 1) (j : S_.Idx) :
    (Host.reduce IntOp.addi (fun i => (b i).setWidth 32) (constantI S_ 32 0#32) reducesTo_S131072_S_d0 h_S_ j).toInt
      = ∑ i : Fin 131072, ((b (ix1 i)).setWidth 32).toInt := by
  rw [Host.reduce_eq_foldl]
  -- every index drops to the one index of the rank-zero result
  have hfil : (((List.finRange S131072.numel).map S131072.rowMajor.symm).filter
        fun i => reducesTo_S131072_S_d0.drop i = j)
      = (List.finRange S131072.numel).map S131072.rowMajor.symm := by
    apply List.filter_eq_self.2
    intro i _
    exact decide_eq_true (funext fun a => a.elim0)
  rw [hfil]
  have hnum : S131072.numel = 131072 := by decide
  have hinit : constantI S_ 32 0#32 (Shape.Idx.first h_S_) = 0#32 := rfl
  rw [hinit]
  have hz : (0#32 : BitVec 32).toInt = 0 := by decide
  rw [foldl_addi_toInt (fun i : S131072.Idx => (b i).setWidth 32) (fun i => flag_toInt (b i)) _ 0#32
    (by rw [hz]) (by rw [hz, List.length_map, List.length_finRange, hnum]; norm_num), hz, Int.zero_add,
    List.map_map, ← Fin.sum_univ_def]
  -- the row-major numbering is a bijection onto the indices, and an index is its coordinate
  refine (Equiv.sum_comp S131072.rowMajor.symm (fun i : S131072.Idx => ((b i).setWidth 32).toInt)).trans ?_
  exact (Equiv.sum_comp (idxEquiv1 (n := 131072)) (fun i : S131072.Idx => ((b i).setWidth 32).toInt)).symm

/-- The integer sum of 131072 one-bit flags widened to 32 bits, from 0, read as a real number: the sum of the flags. -/
theorem count_flags (b : S131072.Idx → BitVec 1) (j : S_.Idx) :
    ((((Host.reduce IntOp.addi (fun i => (b i).setWidth 32) (constantI S_ 32 0#32) reducesTo_S131072_S_d0 h_S_ j).toInt : ℝ)) : EReal)
      = ∑ i : Fin 131072, (((((b (ix1 i)).setWidth 32).toInt : ℝ)) : EReal) := by
  rw [count_flags_int, Int.cast_sum, coe_sum_ereal]

end Cert.ReferenceIdeal.RefLemmas

end
-- ==== Proof.TripletSpec.lean ====
/-
  The mathematics of a margin loss over anchor / positive / negative triplets, on the extended reals.

  For a table  E  of 8192 rows of 512 numbers, a list of 131072 triplets (a, p, n) of row numbers and a number
  b  per triplet:   dAP = E[a] - E[p],  dAN = E[a] - E[n]   (row differences, entry by entry),
     dist u  = sqrt (sum_d u_d * u_d + eps),
     pos     = max (dist dAP - b + margin) 0,      neg = max (b - dist dAN + margin) 0,
  the loss of a triplet is  pos + neg,  a triplet is ACTIVE when  pos > 0  or  neg > 0,  and the result is
     total                         when no triplet is active,
     total / max (number active) 1 otherwise,
  total  the sum of the triplets' losses.  Everything here is stated index by index over plain coordinates, so that a
  block of 256 triplets and the whole list are the same function of their rows.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Triplet

/-- The offset under the root: the single-precision word nearest 1e-8. -/
def eps : EReal := Ideal.ofBits .f32 0x322BCC77#32
/-- The margin: the single-precision word nearest 0.2. -/
def margin : EReal := Ideal.ofBits .f32 0x3E4CCCCD#32

/-- The length of a row difference, stabilised: the root of its squared length plus `eps`. -/
def dist (u : Fin 512 → EReal) : EReal := Ideal.sqrt ((∑ d : Fin 512, u d * u d) + eps)
/-- The positive pair's hinge. -/
def posL (da : Fin 512 → EReal) (b : EReal) : EReal := max (dist da - b + margin) 0
/-- The negative pair's hinge. -/
def negL (dn : Fin 512 → EReal) (b : EReal) : EReal := max (b - dist dn + margin) 0
/-- One triplet's loss. -/
def rowLoss (da dn : Fin 512 → EReal) (b : EReal) : EReal := posL da b + negL dn b
/-- Whether a triplet is active, as a bit. -/
def rowBit (da dn : Fin 512 → EReal) (b : EReal) : BitVec 1 :=
  IntOp.ori (Ideal.cmp .ogt (posL da b) 0) (Ideal.cmp .ogt (negL dn b) 0)
/-- The same as the number 0 or 1. -/
def rowFlag (da dn : Fin 512 → EReal) (b : EReal) : EReal := ((((rowBit da dn b).setWidth 32).toInt : ℝ) : EReal)

/-- Row `w` of the table, `w` a word read as a row number (a word that names no row reads a row all the same; the
    statements that use this carry the hypothesis that every word names a row). -/
def rowOf (E : (⟨2, ![8192, 512]⟩ : Shape).Idx → EReal) (w : BitVec 32) (d : Fin 512) : EReal :=
  E (ix2 (⟨w.toNat % 8192, Nat.mod_lt _ (by decide)⟩ : Fin 8192) d)

/-- Triplet `i`'s difference of the anchor's row and the row in column `col` (1: the positive, 2: the negative). -/
def diffRow (E : (⟨2, ![8192, 512]⟩ : Shape).Idx → EReal) (trip : (⟨2, ![131072, 3]⟩ : Shape).Idx → BitVec 32)
    (i : Fin 131072) (col : Fin 3) (d : Fin 512) : EReal :=
  rowOf E (trip (ix2 i (0 : Fin 3))) d - rowOf E (trip (ix2 i col)) d

/-- Triplet `i`'s loss. -/
def lossAt (E : (⟨2, ![8192, 512]⟩ : Shape).Idx → EReal) (trip : (⟨2, ![131072, 3]⟩ : Shape).Idx → BitVec 32)
    (bpt : Fin 131072 → EReal) (i : Fin 131072) : EReal :=
  rowLoss (diffRow E trip i 1) (diffRow E trip i 2) (bpt i)
/-- Triplet `i`'s activity, 0 or 1. -/
def flagAt (E : (⟨2, ![8192, 512]⟩ : Shape).Idx → EReal) (trip : (⟨2, ![131072, 3]⟩ : Shape).Idx → BitVec 32)
    (bpt : Fin 131072 → EReal) (i : Fin 131072) : EReal :=
  rowFlag (diffRow E trip i 1) (diffRow E trip i 2) (bpt i)

/-- The sum of all losses. -/
def total (E : (⟨2, ![8192, 512]⟩ : Shape).Idx → EReal) (trip : (⟨2, ![131072, 3]⟩ : Shape).Idx → BitVec 32)
    (bpt : Fin 131072 → EReal) : EReal := ∑ i : Fin 131072, lossAt E trip bpt i
/-- The number of active triplets. -/
def count (E : (⟨2, ![8192, 512]⟩ : Shape).Idx → EReal) (trip : (⟨2, ![131072, 3]⟩ : Shape).Idx → BitVec 32)
    (bpt : Fin 131072 → EReal) : EReal := ∑ i : Fin 131072, flagAt E trip bpt i

/-- The mean over the active triplets, the plain total when there is none. -/
def finish (tot cnt : EReal) : EReal :=
  Scalar.select (Ideal.cmp .oeq cnt 0) tot (Ideal.div tot (max cnt 1))

/-- The result. -/
def loss (E : (⟨2, ![8192, 512]⟩ : Shape).Idx → EReal) (trip : (⟨2, ![131072, 3]⟩ : Shape).Idx → BitVec 32)
    (bpt : Fin 131072 → EReal) : EReal := finish (total E trip bpt) (count E trip bpt)

/-- The triplet at row `r` of tile `t` (256 triplets a tile). -/
def tileRow (t r : ℕ) (ht : t < 512) (hr : r < 256) : Fin 131072 := ⟨t * 256 + r, by omega⟩

/-- One tile's loss: the 256 triplets of tile `t`. -/
def tileLoss (E : (⟨2, ![8192, 512]⟩ : Shape).Idx → EReal) (trip : (⟨2, ![131072, 3]⟩ : Shape).Idx → BitVec 32)
    (bpt : Fin 131072 → EReal) (t : ℕ) (ht : t < 512) : EReal :=
  ∑ r : Fin 256, lossAt E trip bpt (tileRow t r.val ht r.isLt)
/-- One tile's number of active triplets. -/
def tileCount (E : (⟨2, ![8192, 512]⟩ : Shape).Idx → EReal) (trip : (⟨2, ![131072, 3]⟩ : Shape).Idx → BitVec 32)
    (bpt : Fin 131072 → EReal) (t : ℕ) (ht : t < 512) : EReal :=
  ∑ r : Fin 256, flagAt E trip bpt (tileRow t r.val ht r.isLt)

end Cert.Triplet

end
-- ==== Proof.RefValue.lean ====
/-
  The reference's result, stage by stage, is the loss of TripletSpec.lean.

  The reference gathers the anchor's, the positive's and the negative's table rows (a negative index wrapped, every
  index clamped: both do nothing to an index that names a row), subtracts, squares, sums along the row, adds eps, takes
  the root; the per-triplet number b is gathered through the anchor's class; the two hinges, their sum over all
  triplets, the count of active triplets as an integer sum converted to a float, and the closing mean.
-/
import proofs.«408964_j12395275616919_3_alg».proof.Proof.RefRead
import proofs.«408964_j12395275616919_3_alg».proof.Proof.RefLemmas
import proofs.«408964_j12395275616919_3_alg».proof.Proof.TripletSpec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read Cert.ReferenceIdeal.RefLemmas Cert.Triplet

/-- The per-triplet number the reference gathers through the anchor's class, as a function of the triplet. -/
def bpt (x1 : IVec S8192 32) (x2 : IVec S131072x3 32) (x3 : FVec Ideal S1000 .f32) : Fin 131072 → EReal :=
  fun i => val_main_v54 (F := Ideal) x1 x2 x3 (ix1 i)

/-- Every triplet entry names a row of the table: it lies in [0, 8192). -/
abbrev Ranged (x2 : IVec S131072x3 32) : Prop :=
  ∀ (i : Fin 131072) (j : Fin 3), 0 ≤ (x2 (ix2 i j)).toInt ∧ (x2 (ix2 i j)).toInt < 8192

/-! ### Where the slices and reshapes read: entry i of column c of the triplet list is the list at (i, c). -/

theorem idx_col0 (i : Fin 131072) : idx_main_v0 (idx_main_v1 (ix1 i)) = ix2 i (0 : Fin 3) := by
  funext a
  match a with
  | ⟨0, _⟩ => exact Fin.ext (Nat.div_one _)
  | ⟨1, _⟩ => rfl

theorem idx_col1 (i : Fin 131072) : idx_main_v9 (idx_main_v10 (ix1 i)) = ix2 i (1 : Fin 3) := by
  funext a
  match a with
  | ⟨0, _⟩ => exact Fin.ext (Nat.div_one _)
  | ⟨1, _⟩ => rfl

theorem idx_col2 (i : Fin 131072) : idx_main_v18 (idx_main_v19 (ix1 i)) = ix2 i (2 : Fin 3) := by
  funext a
  match a with
  | ⟨0, _⟩ => exact Fin.ext (Nat.div_one _)
  | ⟨1, _⟩ => rfl

theorem v1_at (x2 : IVec S131072x3 32) (i : Fin 131072) :
    val_main_v1 (F := Ideal) x2 (ix1 i) = x2 (ix2 i (0 : Fin 3)) := by
  rw [val_main_v1_apply, val_main_v0_apply, idx_col0]

theorem v10_at (x2 : IVec S131072x3 32) (i : Fin 131072) :
    val_main_v10 (F := Ideal) x2 (ix1 i) = x2 (ix2 i (1 : Fin 3)) := by
  rw [val_main_v10_apply, val_main_v9_apply, idx_col1]

theorem v19_at (x2 : IVec S131072x3 32) (i : Fin 131072) :
    val_main_v19 (F := Ideal) x2 (ix1 i) = x2 (ix2 i (2 : Fin 3)) := by
  rw [val_main_v19_apply, val_main_v18_apply, idx_col2]

/-! ### The wrap of negative indices leaves an index that names a row alone. -/

theorem v6_at (x2 : IVec S131072x3 32) (hr : Ranged x2) (i : Fin 131072) :
    val_main_v6 (F := Ideal) x2 (ix1 i) = x2 (ix2 i (0 : Fin 3)) := by
  rw [val_main_v6_apply, val_main_v3_apply, val_main_v5_apply, val_main_v2_apply, val_main_v4_apply,
    val_main_c_apply, val_main_c_0_apply, v1_at]
  exact wrap_of_range _ (hr i 0).1 (hr i 0).2

theorem v15_at (x2 : IVec S131072x3 32) (hr : Ranged x2) (i : Fin 131072) :
    val_main_v15 (F := Ideal) x2 (ix1 i) = x2 (ix2 i (1 : Fin 3)) := by
  rw [val_main_v15_apply, val_main_v12_apply, val_main_v14_apply, val_main_v11_apply, val_main_v13_apply,
    val_main_c_1_apply, val_main_c_2_apply, v10_at]
  exact wrap_of_range _ (hr i 1).1 (hr i 1).2

theorem v24_at (x2 : IVec S131072x3 32) (hr : Ranged x2) (i : Fin 131072) :
    val_main_v24 (F := Ideal) x2 (ix1 i) = x2 (ix2 i (2 : Fin 3)) := by
  rw [val_main_v24_apply, val_main_v21_apply, val_main_v23_apply, val_main_v20_apply, val_main_v22_apply,
    val_main_c_3_apply, val_main_c_4_apply, v19_at]
  exact wrap_of_range _ (hr i 2).1 (hr i 2).2

/-! ### The gathered rows. -/

/-- The column of start indices read at (i, 0) is the vector of indices at i. -/
theorem idx_bc (i : Fin 131072) : idx_main_v7 (ix2 i (0 : Fin 1)) = ix1 i := by
  funext a
  match a with
  | ⟨0, _⟩ => rfl

theorem idx_bc16 (i : Fin 131072) : idx_main_v16 (ix2 i (0 : Fin 1)) = ix1 i := by
  funext a
  match a with
  | ⟨0, _⟩ => rfl

theorem idx_bc25 (i : Fin 131072) : idx_main_v25 (ix2 i (0 : Fin 1)) = ix1 i := by
  funext a
  match a with
  | ⟨0, _⟩ => rfl

/-- A row gather whose start index at triplet i is a word w that names a row reads row w. -/
theorem gather_at (x0 : FVec Ideal S8192x512 .f32) (c : IVec S131072x1 32) (i : Fin 131072) (d : Fin 512) (w : BitVec 32)
    (hw : c (ix2 i (0 : Fin 1)) = w) (h0 : 0 ≤ w.toInt) (h1 : w.toInt < 8192) :
    Host.gather gather_S8192x512_S131072x1_S131072x512_1_0_n_n_0_1_1512 x0 c (ix2 i d) = rowOf x0 w d := by
  subst hw
  rw [gather_row]
  unfold rowOf
  exact congrArg (fun r => x0 (ix2 r d)) (Fin.ext (clamp_of_range _ h0 h1))

theorem v8_at (x0 : FVec Ideal S8192x512 .f32) (x2 : IVec S131072x3 32) (hr : Ranged x2) (i : Fin 131072) (d : Fin 512) :
    val_main_v8 (F := Ideal) x0 x2 (ix2 i d) = rowOf x0 (x2 (ix2 i (0 : Fin 3))) d := by
  have hw : val_main_v7 (F := Ideal) x2 (ix2 i (0 : Fin 1)) = x2 (ix2 i (0 : Fin 3)) := by
    rw [val_main_v7_apply, idx_bc, v6_at x2 hr i]
  unfold val_main_v8
  generalize val_main_v7 (F := Ideal) x2 = c at hw ⊢
  exact gather_at x0 c i d _ hw (hr i 0).1 (hr i 0).2

theorem v17_at (x0 : FVec Ideal S8192x512 .f32) (x2 : IVec S131072x3 32) (hr : Ranged x2) (i : Fin 131072) (d : Fin 512) :
    val_main_v17 (F := Ideal) x0 x2 (ix2 i d) = rowOf x0 (x2 (ix2 i (1 : Fin 3))) d := by
  have hw : val_main_v16 (F := Ideal) x2 (ix2 i (0 : Fin 1)) = x2 (ix2 i (1 : Fin 3)) := by
    rw [val_main_v16_apply, idx_bc16, v15_at x2 hr i]
  unfold val_main_v17
  generalize val_main_v16 (F := Ideal) x2 = c at hw ⊢
  exact gather_at x0 c i d _ hw (hr i 1).1 (hr i 1).2

theorem v26_at (x0 : FVec Ideal S8192x512 .f32) (x2 : IVec S131072x3 32) (hr : Ranged x2) (i : Fin 131072) (d : Fin 512) :
    val_main_v26 (F := Ideal) x0 x2 (ix2 i d) = rowOf x0 (x2 (ix2 i (2 : Fin 3))) d := by
  have hw : val_main_v25 (F := Ideal) x2 (ix2 i (0 : Fin 1)) = x2 (ix2 i (2 : Fin 3)) := by
    rw [val_main_v25_apply, idx_bc25, v24_at x2 hr i]
  unfold val_main_v26
  generalize val_main_v25 (F := Ideal) x2 = c at hw ⊢
  exact gather_at x0 c i d _ hw (hr i 2).1 (hr i 2).2

/-! ### Row differences, squared lengths, distances. -/

theorem idx_red29 (i : Fin 131072) (k : Fin 512) : idx_main_v29 (ix1 i) k = ix2 i k := by
  funext a
  match a with
  | ⟨0, _⟩ => rfl
  | ⟨1, _⟩ => rfl

theorem idx_red35 (i : Fin 131072) (k : Fin 512) : idx_main_v35 (ix1 i) k = ix2 i k := by
  funext a
  match a with
  | ⟨0, _⟩ => rfl
  | ⟨1, _⟩ => rfl

theorem v27_at (x0 : FVec Ideal S8192x512 .f32) (x2 : IVec S131072x3 32) (hr : Ranged x2) (i : Fin 131072) (d : Fin 512) :
    val_main_v27 (F := Ideal) x0 x2 (ix2 i d) = diffRow x0 x2 i 1 d := by
  rw [val_main_v27_apply, v8_at x0 x2 hr, v17_at x0 x2 hr]
  rfl

theorem v33_at (x0 : FVec Ideal S8192x512 .f32) (x2 : IVec S131072x3 32) (hr : Ranged x2) (i : Fin 131072) (d : Fin 512) :
    val_main_v33 (F := Ideal) x0 x2 (ix2 i d) = diffRow x0 x2 i 2 d := by
  rw [val_main_v33_apply, v8_at x0 x2 hr, v26_at x0 x2 hr]
  rfl

theorem v29_at (x0 : FVec Ideal S8192x512 .f32) (x2 : IVec S131072x3 32) (hr : Ranged x2) (i : Fin 131072) :
    val_main_v29 (F := Ideal) x0 x2 (ix1 i) = ∑ d : Fin 512, diffRow x0 x2 i 1 d * diffRow x0 x2 i 1 d := by
  rw [val_main_v29_apply, val_main_cst_apply, Ideal.ofBits_def, Ideal.ofBits_zero_f32, zero_add]
  refine Finset.sum_congr rfl fun k _ => ?_
  rw [idx_red29, val_main_v28_apply, v27_at x0 x2 hr]
  rfl

theorem v35_at (x0 : FVec Ideal S8192x512 .f32) (x2 : IVec S131072x3 32) (hr : Ranged x2) (i : Fin 131072) :
    val_main_v35 (F := Ideal) x0 x2 (ix1 i) = ∑ d : Fin 512, diffRow x0 x2 i 2 d * diffRow x0 x2 i 2 d := by
  rw [val_main_v35_apply, val_main_cst_6_apply, Ideal.ofBits_def, Ideal.ofBits_zero_f32, zero_add]
  refine Finset.sum_congr rfl fun k _ => ?_
  rw [idx_red35, val_main_v34_apply, v33_at x0 x2 hr]
  rfl

theorem v32_at (x0 : FVec Ideal S8192x512 .f32) (x2 : IVec S131072x3 32) (hr : Ranged x2) (i : Fin 131072) :
    val_main_v32 (F := Ideal) x0 x2 (ix1 i) = dist (diffRow x0 x2 i 1) := by
  rw [val_main_v32_apply, val_main_v31_apply, v29_at x0 x2 hr, val_main_v30_apply, val_main_cst_5_apply]
  rfl

theorem v38_at (x0 : FVec Ideal S8192x512 .f32) (x2 : IVec S131072x3 32) (hr : Ranged x2) (i : Fin 131072) :
    val_main_v38 (F := Ideal) x0 x2 (ix1 i) = dist (diffRow x0 x2 i 2) := by
  rw [val_main_v38_apply, val_main_v37_apply, v35_at x0 x2 hr, val_main_v36_apply, val_main_cst_7_apply]
  rfl

/-! ### The two hinges. -/

theorem v58_at (x0 : FVec Ideal S8192x512 .f32) (x1 : IVec S8192 32) (x2 : IVec S131072x3 32) (x3 : FVec Ideal S1000 .f32)
    (hr : Ranged x2) (i : Fin 131072) :
    val_main_v58 (F := Ideal) x0 x1 x2 x3 (ix1 i) = posL (diffRow x0 x2 i 1) (bpt x1 x2 x3 i) := by
  rw [val_main_v58_apply, val_main_v57_apply, val_main_v55_apply, v32_at x0 x2 hr, val_main_v56_apply,
    val_main_cst_12_apply, val_main_call0_v0_apply, val_main_call0_cst_apply]
  show max (dist (diffRow x0 x2 i 1) - bpt x1 x2 x3 i + margin) (Ideal.ofBits .f32 0x00000000#32) = _
  rw [Ideal.ofBits_zero_f32]
  rfl

theorem v62_at (x0 : FVec Ideal S8192x512 .f32) (x1 : IVec S8192 32) (x2 : IVec S131072x3 32) (x3 : FVec Ideal S1000 .f32)
    (hr : Ranged x2) (i : Fin 131072) :
    val_main_v62 (F := Ideal) x0 x1 x2 x3 (ix1 i) = negL (diffRow x0 x2 i 2) (bpt x1 x2 x3 i) := by
  rw [val_main_v62_apply, val_main_v61_apply, val_main_v59_apply, v38_at x0 x2 hr, val_main_v60_apply,
    val_main_cst_13_apply, val_main_call1_v0_apply, val_main_call1_cst_apply]
  show max (bpt x1 x2 x3 i - dist (diffRow x0 x2 i 2) + margin) (Ideal.ofBits .f32 0x00000000#32) = _
  rw [Ideal.ofBits_zero_f32]
  rfl

/-! ### The sum of the losses. -/

theorem v71_at (x0 : FVec Ideal S8192x512 .f32) (x1 : IVec S8192 32) (x2 : IVec S131072x3 32) (x3 : FVec Ideal S1000 .f32)
    (hr : Ranged x2) (i : Fin 131072) :
    val_main_v71 (F := Ideal) x0 x1 x2 x3 (ix1 i) = lossAt x0 x2 (bpt x1 x2 x3) i := by
  rw [val_main_v71_apply, v58_at x0 x1 x2 x3 hr, v62_at x0 x1 x2 x3 hr]
  rfl

theorem v72_at (x0 : FVec Ideal S8192x512 .f32) (x1 : IVec S8192 32) (x2 : IVec S131072x3 32) (x3 : FVec Ideal S1000 .f32)
    (hr : Ranged x2) (j : S_.Idx) :
    val_main_v72 (F := Ideal) x0 x1 x2 x3 j = total x0 x2 (bpt x1 x2 x3) := by
  rw [val_main_v72_apply, val_main_cst_17_apply, Ideal.ofBits_def, Ideal.ofBits_zero_f32, zero_add]
  unfold total
  rw [← Equiv.sum_comp (Idealize.ShloMosaic.ValueIdx.idxEquiv1 (n := 131072)).symm]
  refine Finset.sum_congr rfl fun i _ => ?_
  exact v71_at x0 x1 x2 x3 hr i

/-! ### The count of active triplets. -/

theorem v67_at (x0 : FVec Ideal S8192x512 .f32) (x1 : IVec S8192 32) (x2 : IVec S131072x3 32) (x3 : FVec Ideal S1000 .f32)
    (hr : Ranged x2) (i : Fin 131072) :
    val_main_v67 (F := Ideal) x0 x1 x2 x3 (ix1 i)
      = rowBit (diffRow x0 x2 i 1) (diffRow x0 x2 i 2) (bpt x1 x2 x3 i) := by
  rw [val_main_v67_apply, val_main_v64_apply, val_main_v66_apply, v58_at x0 x1 x2 x3 hr, v62_at x0 x1 x2 x3 hr,
    val_main_v63_apply, val_main_v65_apply, val_main_cst_14_apply, val_main_cst_15_apply,
    Ideal.cmpf_def, Ideal.cmpf_def, Ideal.ofBits_def, Ideal.ofBits_zero_f32]
  rfl

theorem v70_at (x0 : FVec Ideal S8192x512 .f32) (x1 : IVec S8192 32) (x2 : IVec S131072x3 32) (x3 : FVec Ideal S1000 .f32)
    (hr : Ranged x2) (j : S_.Idx) :
    val_main_v70 (F := Ideal) x0 x1 x2 x3 j = Cert.Triplet.count x0 x2 (bpt x1 x2 x3) := by
  have h68 : val_main_v68 (F := Ideal) x0 x1 x2 x3
      = fun i => (val_main_v67 (F := Ideal) x0 x1 x2 x3 i).setWidth 32 := rfl
  rw [val_main_v70_apply]
  unfold val_main_v69 val_main_c_16
  rw [h68]
  refine (count_flags (val_main_v67 (F := Ideal) x0 x1 x2 x3) j).trans ?_
  unfold Cert.Triplet.count
  refine Finset.sum_congr rfl fun i _ => ?_
  rw [v67_at x0 x1 x2 x3 hr]
  rfl

/-! ### The closing mean. -/

/-- The reference's result is the loss, when every triplet entry names a row of the table. -/
theorem result_eq (x0 : FVec Ideal S8192x512 .f32) (x1 : IVec S8192 32) (x2 : IVec S131072x3 32) (x3 : FVec Ideal S1000 .f32)
    (hrange : ∀ (i : Fin 131072) (j : Fin 3), 0 ≤ (x2 (ix2 i j)).toInt ∧ (x2 (ix2 i j)).toInt < 8192) :
    val_main_v76 (F := Ideal) x0 x1 x2 x3 = fun _ => loss x0 x2 (bpt x1 x2 x3) := by
  funext j
  rw [val_main_v76_apply, val_main_v73_apply, val_main_v75_apply, val_main_v74_apply,
    v72_at x0 x1 x2 x3 hrange, v70_at x0 x1 x2 x3 hrange, val_main_cst_18_apply, val_main_cst_19_apply,
    Ideal.cmpf_def, Ideal.ofBits_def, Ideal.ofBits_def, Ideal.ofBits_zero_f32, Ideal.ofBits_one_f32]
  rfl

end Cert.ReferenceIdeal.RefValue

end
-- ==== Proof.KPieces.lean ====
/-
  What one step of the body leaves in its two accumulators, read off the stores the step makes.

  A step writes the two halves of the stacked one-hot-difference matrix into a scratch buffer and reads the whole
  buffer back: what it reads is, row by row, the half that was stored there. At the first step of a half of the grid
  both accumulators are first set to zero; at every other step they hold what the step before left. Either way the
  loss accumulator ends holding its previous contents plus the tile's loss, the count accumulator its previous
  contents plus the tile's count, both computed from the read-back matrix, the table and the tile's numbers b.
-/
import proofs.«408964_j12395275616919_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The two stores into the scratch buffer, the later first: rows 256..511 the anchor-minus-negative one-hot
    differences, rows 0..255 the anchor-minus-positive ones. -/
def halves (x0 : Vec F S256x3 .i32) : List (View.Piece (Elt F) S512x8192 .bf16) :=
  [⟨Rect.unit ![256, 0] S256x8192.size inb_S512x8192_S256x8192_256_0, k0_pay6 x0⟩,
   ⟨Rect.unit ![0, 0] S256x8192.size inb_S512x8192_S256x8192_0_0, k0_pay5 x0⟩]

/-- The whole scratch buffer read back after the two stores. -/
def stacked (x0 : Vec F S256x3 .i32) : Vec F S512x8192 .bf16 :=
  fun j => View.canon (halves x0) ((Rect.unit ![0, 0] S512x8192.size inb_S512x8192_S512x8192_0_0).toLoadRect.idx j)

/-- The tile's loss added to `xo`, as the body's arithmetic. -/
def lossStep (x0 : Vec F S256x3 .i32) (x1 : Vec F S256x1 .f32) (x2 : Vec F S8192x512 .bf16) (xo : Vec F S1x1x1 .f32) : Vec F S1x1x1 .f32 :=
  k0_pay14 (k0_pay8 x2 (stacked x0)) (k0_pay9 x2 (stacked x0)) x1 xo
/-- The tile's count added to `xo`, as the body's arithmetic. -/
def countStep (x0 : Vec F S256x3 .i32) (x1 : Vec F S256x1 .f32) (x2 : Vec F S8192x512 .bf16) (xo : Vec F S1x1x1 .f32) : Vec F S1x1x1 .f32 :=
  k0_pay1 (k0_pay13 (k0_pay8 x2 (stacked x0)) (k0_pay9 x2 (stacked x0)) x1) xo

/-- A later step leaves, in the loss accumulator holding `xo3`, `xo3` plus the tile's loss. -/
theorem out_B_3 (c : Dev nD) (i : grid0.Coords) (arg2 : Memref sig .tc .vmem S256x3 .i32) (harg2 : arg2.IsWhole) (arg3 : Memref sig .tc .vmem S256x1 .f32) (harg3 : arg3.IsWhole) (arg4 : Memref sig .tc .vmem S8192x512 .bf16) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S512x8192 .bf16) (harg7 : arg7.IsWhole) (hc0 : ¬cond0_0 i)
    (x0 : Vec F S256x3 .i32) (x1 : Vec F S256x1 .f32) (x2 : Vec F S8192x512 .bf16) (xo3 xo4 : Vec F S1x1x1 .f32) :
    out0_B_3 c i arg2 harg2 arg3 harg3 arg4 harg4 arg5 harg5 arg6 harg6 arg7 harg7 hc0 x0 x1 x2 xo3 xo4 = lossStep x0 x1 x2 xo3 := by
  unfold out0_B_3
  rw [View.read_writes_eq_canon _ _ _ (cover0_B_3 c i arg2 harg2 arg3 harg3 arg4 harg4 arg5 harg5 arg6 harg6 arg7 harg7 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S256x3) hz2, View.ld_unit_zero (S := S8192x512) hz2, View.ld_unit_zero (S := S256x1) hz2,
    View.ld_unit_zero (S := S1x1x1) hz3, View.readCov_eq_canon' arg7.view]
  rfl

/-- A later step leaves, in the count accumulator holding `xo4`, `xo4` plus the tile's count. -/
theorem out_B_4 (c : Dev nD) (i : grid0.Coords) (arg2 : Memref sig .tc .vmem S256x3 .i32) (harg2 : arg2.IsWhole) (arg3 : Memref sig .tc .vmem S256x1 .f32) (harg3 : arg3.IsWhole) (arg4 : Memref sig .tc .vmem S8192x512 .bf16) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S512x8192 .bf16) (harg7 : arg7.IsWhole) (hc0 : ¬cond0_0 i)
    (x0 : Vec F S256x3 .i32) (x1 : Vec F S256x1 .f32) (x2 : Vec F S8192x512 .bf16) (xo3 xo4 : Vec F S1x1x1 .f32) :
    out0_B_4 c i arg2 harg2 arg3 harg3 arg4 harg4 arg5 harg5 arg6 harg6 arg7 harg7 hc0 x0 x1 x2 xo3 xo4 = countStep x0 x1 x2 xo4 := by
  unfold out0_B_4
  rw [View.read_writes_eq_canon _ _ _ (cover0_B_4 c i arg2 harg2 arg3 harg3 arg4 harg4 arg5 harg5 arg6 harg6 arg7 harg7 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S256x3) hz2, View.ld_unit_zero (S := S8192x512) hz2, View.ld_unit_zero (S := S256x1) hz2,
    View.ld_unit_zero (S := S1x1x1) hz3, View.readCov_eq_canon' arg7.view]
  rfl

/-- A first step leaves the zero block plus the tile's loss. -/
theorem out_A_3 (c : Dev nD) (i : grid0.Coords) (arg2 : Memref sig .tc .vmem S256x3 .i32) (harg2 : arg2.IsWhole) (arg3 : Memref sig .tc .vmem S256x1 .f32) (harg3 : arg3.IsWhole) (arg4 : Memref sig .tc .vmem S8192x512 .bf16) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S512x8192 .bf16) (harg7 : arg7.IsWhole) (hc0 : cond0_0 i)
    (x0 : Vec F S256x3 .i32) (x1 : Vec F S256x1 .f32) (x2 : Vec F S8192x512 .bf16) :
    out0_A_3 c i arg2 harg2 arg3 harg3 arg4 harg4 arg5 harg5 arg6 harg6 arg7 harg7 hc0 x0 x1 x2 = lossStep x0 x1 x2 k0_pay2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x1x1) hz3]
  simp only [View.readAt_eq_ld, harg2.read_unread, harg3.read_unread, harg4.read_unread, harg5.read_unread, harg6.read_unread,
    View.ld_unit_zero (S := S256x3) hz2, View.ld_unit_zero (S := S8192x512) hz2, View.ld_unit_zero (S := S256x1) hz2,
    View.ld_unit_zero (S := S1x1x1) hz3, View.readCov_eq_canon' arg7.view, View.readCov_unit_zero (S := S1x1x1) _ hz3]
  rfl

/-- A first step leaves the zero block plus the tile's count. -/
theorem out_A_4 (c : Dev nD) (i : grid0.Coords) (arg2 : Memref sig .tc .vmem S256x3 .i32) (harg2 : arg2.IsWhole) (arg3 : Memref sig .tc .vmem S256x1 .f32) (harg3 : arg3.IsWhole) (arg4 : Memref sig .tc .vmem S8192x512 .bf16) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S512x8192 .bf16) (harg7 : arg7.IsWhole) (hc0 : cond0_0 i)
    (x0 : Vec F S256x3 .i32) (x1 : Vec F S256x1 .f32) (x2 : Vec F S8192x512 .bf16) :
    out0_A_4 c i arg2 harg2 arg3 harg3 arg4 harg4 arg5 harg5 arg6 harg6 arg7 harg7 hc0 x0 x1 x2 = countStep x0 x1 x2 k0_pay3 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x1) hz3]
  simp only [View.readAt_eq_ld, harg2.read_unread, harg3.read_unread, harg4.read_unread, harg5.read_unread, harg6.read_unread,
    View.ld_unit_zero (S := S256x3) hz2, View.ld_unit_zero (S := S8192x512) hz2, View.ld_unit_zero (S := S256x1) hz2,
    View.ld_unit_zero (S := S1x1x1) hz3, View.readCov_eq_canon' arg7.view, View.readCov_unit_zero (S := S1x1x1) _ hz3]
  rfl

end Cert.KernelIdeal.Pieces

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.TileValue.lean ====
/-
  One tile of 256 triplets, as the body's arithmetic computes it at the extended reals.

  The body builds, for its 256 triplets, the matrix whose row r is  onehot(a_r) - onehot(p_r)  (rows 0..255) and
  onehot(a_r) - onehot(n_r)  (rows 256..511) over the 8192 table rows, multiplies it by the table, and so gets the
  row differences  E[a_r] - E[p_r]  and  E[a_r] - E[n_r] : a sum over the 8192 table rows in which at most two terms
  are not zero. That step needs every table entry to be a real number (a product 0 * x with x infinite is still 0
  on the extended reals, but  x - x  is not 0 there) and every triplet entry to name a table row. From there on the
  tile's loss and its count of active triplets are the sums over its 256 rows of the per-triplet quantities of
  TripletSpec.lean, added to what the accumulators held.
-/
import proofs.«408964_j12395275616919_3_alg».proof.Proof.Gen.KernelIdeal.Skeleton
import proofs.«408964_j12395275616919_3_alg».proof.Proof.TripletSpec
import proofs.«408964_j12395275616919_3_alg».proof.Proof.LibColumn
import proofs.«408964_j12395275616919_3_alg».proof.Proof.LibMlp
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.KernelIdeal.TileValue

open Cert.KernelIdeal Cert.KernelIdeal.Gen Cert.Triplet

/-- The stacked matrix of one-hot differences as the body reads it back from its scratch: rows 0..255 hold the
    anchor-minus-positive differences, rows 256..511 the anchor-minus-negative ones. -/
def Stacked (x0 : Vec Ideal S256x3 .i32) (v36 : Vec Ideal S512x8192 .bf16) : Prop :=
  (∀ (r : Fin 256) (k : Fin 8192), v36 (ix2 (⟨r.val, by omega⟩ : Fin 512) k) = k0_pay5 (F := Ideal) x0 (ix2 r k))
  ∧ (∀ (r : Fin 256) (k : Fin 8192), v36 (ix2 (⟨256 + r.val, by omega⟩ : Fin 512) k) = k0_pay6 (F := Ideal) x0 (ix2 r k))

/-- Row `r` of the block of triplets: the anchor's table row minus the row named in column `col`. -/
def blkDiff (E : Vec Ideal S8192x512 .bf16) (x0 : Vec Ideal S256x3 .i32) (r : Fin 256) (col : Fin 3) (d : Fin 512) : EReal :=
  rowOf E (x0 (ix2 r (0 : Fin 3))) d - rowOf E (x0 (ix2 r col)) d

/-! ## One-hot rows -/

/-- The indicator that the word `w` is the number `k`, as a real number. -/
def oh (w : BitVec 32) (k : ℕ) : ℝ := if w = BitVec.ofNat 32 k then 1 else 0

/-- The equality bit of two words, widened to 32 bits and read as a signed integer, is 1 when they are equal and 0
    otherwise. -/
theorem eqbit_toInt (w v : BitVec 32) :
    (((IntOp.cmpi .eq w v).setWidth 32).toInt : ℝ) = if w = v then 1 else 0 := by
  unfold IntOp.cmpi
  by_cases h : w = v
  · subst h; simp
  · have : (w == v) = false := by simpa using h
    simp [this, h]

/-- The one-hot matrix of column `c` of the triplets: entry (r, k) is 1 when the word at (r, c) is `k`. -/
theorem onehot_apply (x0 : Vec Ideal S256x3 .i32) (c : Fin 3) (h : S256x3.Slices ![0, c.val] S256x1)
    (r : Fin 256) (k : Fin 8192) :
    (truncf (F := Ideal) .bf16 (sitofp .f32 (extui 32 (cmpi .eq
        (broadcastTo S256x8192 (extractStridedSlice S256x1 ![0, c.val] x0 h) Facts₀.broadcasts_S256x1_S256x8192)
        (broadcastTo S256x8192 (iota .tc S1x8192 32 [1] Facts₀.iota_S1x8192_d1_w32) Facts₀.broadcasts_S1x8192_S256x8192))
        Facts₀.natLt_1_32)) Facts₀.bitsLt_bf16_f32 : FVec Ideal S256x8192 .bf16) (ix2 r k)
      = ((oh (x0 (ix2 r c)) k.val : ℝ) : EReal) := by
  have h1 : broadcastTo S256x8192 (extractStridedSlice S256x1 ![0, c.val] x0 h) Facts₀.broadcasts_S256x1_S256x8192 (ix2 r k)
      = x0 (ix2 r c) := by
    refine (Cert.Attn.Column.broadcastTo_a1_ab_apply _ _ r k).trans ?_
    refine extractStridedSlice_apply _ x0 h (ix2 r (0 : Fin 1)) (ix2 r c) fun a => ?_
    match a with
    | ⟨0, _⟩ => show r.val = 0 + r.val; omega
    | ⟨1, _⟩ => show c.val = c.val + 0; omega
  have h2 : broadcastTo S256x8192 (iota .tc S1x8192 32 [1] Facts₀.iota_S1x8192_d1_w32) Facts₀.broadcasts_S1x8192_S256x8192 (ix2 r k)
      = BitVec.ofNat 32 k.val := by
    refine (broadcastTo_apply _ _ (ix2 r k) (ix2 (0 : Fin 1) k) fun a => ?_).trans ?_
    · match a with
      | ⟨0, _⟩ => rfl
      | ⟨1, _⟩ => rfl
    · exact iota_single_apply .tc S1x8192 32 (1 : Fin 2) Facts₀.iota_S1x8192_d1_w32 (ix2 (0 : Fin 1) k)
  show ((((IntOp.cmpi .eq
      (broadcastTo S256x8192 (extractStridedSlice S256x1 ![0, c.val] x0 h) Facts₀.broadcasts_S256x1_S256x8192 (ix2 r k))
      (broadcastTo S256x8192 (iota .tc S1x8192 32 [1] Facts₀.iota_S1x8192_d1_w32) Facts₀.broadcasts_S1x8192_S256x8192 (ix2 r k))).setWidth 32).toInt : ℝ) : EReal) = _
  rw [h1, h2, eqbit_toInt]
  rfl

/-- Entry (r, k) of the anchor-minus-positive matrix: the difference of the two indicators. -/
theorem pay5_apply (x0 : Vec Ideal S256x3 .i32) (r : Fin 256) (k : Fin 8192) :
    k0_pay5 (F := Ideal) x0 (ix2 r k)
      = ((oh (x0 (ix2 r (0 : Fin 3))) k.val - oh (x0 (ix2 r (1 : Fin 3))) k.val : ℝ) : EReal) := by
  unfold k0_pay5 k0_pay4
  refine (congrFun (shapeCast_self _ _) (ix2 r k)).trans ?_
  rw [EReal.coe_sub]
  exact congrArg₂ (fun a b : EReal => a - b) (onehot_apply x0 0 Facts₀.slices_S256x3_o0_0_S256x1 r k)
    (onehot_apply x0 1 Facts₀.slices_S256x3_o0_1_S256x1 r k)

/-- Entry (r, k) of the anchor-minus-negative matrix. -/
theorem pay6_apply (x0 : Vec Ideal S256x3 .i32) (r : Fin 256) (k : Fin 8192) :
    k0_pay6 (F := Ideal) x0 (ix2 r k)
      = ((oh (x0 (ix2 r (0 : Fin 3))) k.val - oh (x0 (ix2 r (2 : Fin 3))) k.val : ℝ) : EReal) := by
  unfold k0_pay6 k0_pay4
  refine (congrFun (shapeCast_self _ _) (ix2 r k)).trans ?_
  rw [EReal.coe_sub]
  exact congrArg₂ (fun a b : EReal => a - b) (onehot_apply x0 0 Facts₀.slices_S256x3_o0_0_S256x1 r k)
    (onehot_apply x0 2 Facts₀.slices_S256x3_o0_2_S256x1 r k)

/-! ## Sums of real numbers read in the extended reals -/

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A word whose signed reading lies in [0, 8192) has its unsigned reading below 8192. -/
theorem toNat_lt_of_range (w : BitVec 32) (h0 : 0 ≤ w.toInt) (h1 : w.toInt < 8192) : w.toNat < 8192 := by
  have hlt := w.isLt
  rw [BitVec.toInt_eq_toNat_cond] at h0 h1
  split at h0 <;> omega

/-- Against the indicator of the word `w`, a sum over the 8192 row numbers keeps the one term at `w`. -/
theorem onehot_sum (w : BitVec 32) (hw : w.toNat < 8192) (f : Fin 8192 → ℝ) :
    ∑ k : Fin 8192, oh w k.val * f k = f ⟨w.toNat % 8192, Nat.mod_lt _ (by decide)⟩ := by
  have key : ∀ k : Fin 8192, (w = BitVec.ofNat 32 k.val) ↔ k = ⟨w.toNat % 8192, Nat.mod_lt _ (by decide)⟩ := by
    intro k
    have hk := k.isLt
    constructor
    · intro h
      apply Fin.ext
      show k.val = w.toNat % 8192
      have h' : w.toNat = k.val % 2 ^ 32 := by rw [h]; exact BitVec.toNat_ofNat _ _
      omega
    · intro h
      have hkv : k.val = w.toNat % 8192 := congrArg Fin.val h
      apply BitVec.eq_of_toNat_eq
      rw [BitVec.toNat_ofNat]
      omega
  unfold oh
  simp only [key, ite_mul, one_mul, zero_mul, Finset.sum_ite_eq', Finset.mem_univ, if_true]

/-! ## The product with the table: row differences -/

/-- Entry (i, d) of the product of the stacked matrix with the table: the sum over the 8192 table rows. -/
theorem pay7_apply (x2 : FVec Ideal S8192x512 .bf16) (v36 : FVec Ideal S512x8192 .bf16) (i : Fin 512) (d : Fin 512) :
    k0_pay7 (F := Ideal) x2 v36 (ix2 i d) = ∑ k : Fin 8192, v36 (ix2 i k) * x2 (ix2 k d) := by
  have hd : dot_S512x8192_S8192x512_S512x512_1_0_0_1_n_n = DotDims.plain 512 8192 512 := rfl
  unfold k0_pay7
  show FloatOps.matmul dot_S512x8192_S8192x512_S512x512_1_0_0_1_n_n none v36
    (shapeCast S8192x512 x2 Facts₀.shapeCasts_S8192x512_S8192x512)
    (constant S512x512 .f32 0x00000000#32) (ix2 i d) = _
  rw [shapeCast_self, hd]
  refine (Ideal.matmul_constant_zero_apply (DotDims.plain 512 8192 512) none v36 x2 (ix2 i d)).trans ?_
  exact Cert.Mlp.plain_sum v36 x2 (ix2 i d)

/-- A row of indicator differences against a table of real numbers: the difference of the two table rows. -/
theorem diff_sum (x2 : (⟨2, ![8192, 512]⟩ : Shape).Idx → EReal) (e : (⟨2, ![8192, 512]⟩ : Shape).Idx → ℝ)
    (he : ∀ i, x2 i = ((e i : ℝ) : EReal)) (a p : BitVec 32) (ha : a.toNat < 8192) (hp : p.toNat < 8192) (d : Fin 512) :
    ∑ k : Fin 8192, ((oh a k.val - oh p k.val : ℝ) : EReal) * x2 (ix2 k d) = rowOf x2 a d - rowOf x2 p d := by
  unfold rowOf
  rw [he, he, ← EReal.coe_sub]
  have hterm : ∀ k : Fin 8192, ((oh a k.val - oh p k.val : ℝ) : EReal) * x2 (ix2 k d)
      = (((oh a k.val - oh p k.val) * e (ix2 k d) : ℝ) : EReal) := fun k => by rw [he, EReal.coe_mul]
  rw [Finset.sum_congr rfl fun k _ => hterm k, ← coe_sum]
  congr 1
  simp only [sub_mul, Finset.sum_sub_distrib]
  rw [onehot_sum a ha (fun k => e (ix2 k d)), onehot_sum p hp (fun k => e (ix2 k d))]

/-- Rows 0..255 of the product hold the anchor-minus-positive row differences, rows 256..511 the anchor-minus-negative
    ones. -/
theorem pay7_rows (x0 : Vec Ideal S256x3 .i32) (x2 : Vec Ideal S8192x512 .bf16) (v36 : Vec Ideal S512x8192 .bf16)
    (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) (r : Fin 256) (d : Fin 512) :
    k0_pay7 (F := Ideal) x2 v36 (ix2 (⟨r.val, by omega⟩ : Fin 512) d) = blkDiff x2 x0 r 1 d
    ∧ k0_pay7 (F := Ideal) x2 v36 (ix2 (⟨256 + r.val, by omega⟩ : Fin 512) d) = blkDiff x2 x0 r 2 d := by
  choose e he using hfin
  have hn : ∀ j : Fin 3, (x0 (ix2 r j)).toNat < 8192 := fun j => toNat_lt_of_range _ (hrange r j).1 (hrange r j).2
  constructor
  · rw [pay7_apply]
    unfold blkDiff
    refine (Finset.sum_congr rfl fun k _ => ?_).trans (diff_sum x2 e he _ _ (hn 0) (hn 1) d)
    rw [hst.1 r k, pay5_apply]
  · rw [pay7_apply]
    unfold blkDiff
    refine (Finset.sum_congr rfl fun k _ => ?_).trans (diff_sum x2 e he _ _ (hn 0) (hn 2) d)
    rw [hst.2 r k, pay6_apply]

/-! ## The two halves of the product -/

/-- The first half, squared entry by entry: the square of the anchor-minus-positive row difference. -/
theorem pay9_apply (x0 : Vec Ideal S256x3 .i32) (x2 : Vec Ideal S8192x512 .bf16) (v36 : Vec Ideal S512x8192 .bf16)
    (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) (r : Fin 256) (d : Fin 512) :
    k0_pay9 (F := Ideal) x2 v36 (ix2 r d) = blkDiff x2 x0 r 1 d * blkDiff x2 x0 r 1 d := by
  have hs : extractStridedSlice S256x512 ![0, 0] (k0_pay7 (F := Ideal) x2 v36) Facts₀.slices_S512x512_o0_0_S256x512 (ix2 r d)
      = blkDiff x2 x0 r 1 d := by
    refine (extractStridedSlice_apply _ _ _ (ix2 r d) (ix2 (⟨r.val, by omega⟩ : Fin 512) d) fun a => ?_).trans
      (pay7_rows x0 x2 v36 hst hrange hfin r d).1
    match a with
    | ⟨0, _⟩ => show r.val = 0 + r.val; omega
    | ⟨1, _⟩ => show d.val = 0 + d.val; omega
  unfold k0_pay9
  exact congrArg₂ (fun a b : EReal => a * b) hs hs

/-- The second half: the anchor-minus-negative row difference. -/
theorem pay8_apply (x0 : Vec Ideal S256x3 .i32) (x2 : Vec Ideal S8192x512 .bf16) (v36 : Vec Ideal S512x8192 .bf16)
    (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) (r : Fin 256) (d : Fin 512) :
    k0_pay8 (F := Ideal) x2 v36 (ix2 r d) = blkDiff x2 x0 r 2 d := by
  unfold k0_pay8
  refine (extractStridedSlice_apply _ _ _ (ix2 r d) (ix2 (⟨256 + r.val, by omega⟩ : Fin 512) d) fun a => ?_).trans
    (pay7_rows x0 x2 v36 hst hrange hfin r d).2
  match a with
  | ⟨0, _⟩ => show 256 + r.val = 256 + r.val; rfl
  | ⟨1, _⟩ => show d.val = 0 + d.val; omega

/-! ## The two hinges of a row -/

/-- The sum along a row of a [256, 512] array, kept as a column: entry (r, 0) is the sum of row r. -/
theorem rowsum_apply (v : FVec Ideal S256x512 .f32) (r : Fin 256) :
    shapeCast S256x1 (multiReduction .add [1] S256 v 0x00000000#32 Facts₀.reduces_S256x512_S256 (.inl rfl) rfl)
        Facts₀.shapeCasts_S256_S256x1 (ix2 r (0 : Fin 1))
      = ∑ d : Fin 512, v (ix2 r d) := by
  refine (Cert.Attn.Column.shapeCast_a_a1_apply _ _ r 0).trans ?_
  refine (Ideal.multiReduction_add_single v 0x00000000#32 Facts₀.reduces_S256x512_S256 (.inl rfl) rfl (ix1 r)).trans ?_
  refine Finset.sum_congr rfl fun d _ => congrArg v ?_
  funext a
  apply Fin.ext
  match a with
  | ⟨0, _⟩ => rfl
  | ⟨1, _⟩ => rfl

/-- The positive pair's hinge at row r, from the squared differences. -/
theorem pay11_apply (v40 : FVec Ideal S256x512 .f32) (x1 : FVec Ideal S256x1 .f32) (r : Fin 256) :
    k0_pay11 (F := Ideal) v40 x1 (ix2 r (0 : Fin 1))
      = max (Ideal.sqrt ((∑ d : Fin 512, v40 (ix2 r d)) + eps) - x1 (ix2 r (0 : Fin 1)) + margin) 0 := by
  have hx : shapeCast S256x1 x1 Facts₀.shapeCasts_S256x1_S256x1 = x1 := shapeCast_self _ _
  have key : ∀ s b : EReal, max (Ideal.sqrt (s + eps) - b + margin) (Ideal.ofBits .f32 0x00000000#32)
      = max (Ideal.sqrt (s + eps) - b + margin) 0 := fun s b => by rw [Ideal.ofBits_zero_f32]
  refine Eq.trans ?_ (key _ _)
  unfold k0_pay11 k0_pay10
  exact congrArg₂ (fun s b : EReal => max (Ideal.sqrt (s + eps) - b + margin) (Ideal.ofBits .f32 0x00000000#32))
    (rowsum_apply v40 r) (congrFun hx (ix2 r (0 : Fin 1)))

/-- The negative pair's hinge at row r, from the differences. -/
theorem pay12_apply (v39 : FVec Ideal S256x512 .f32) (x1 : FVec Ideal S256x1 .f32) (r : Fin 256) :
    k0_pay12 (F := Ideal) v39 x1 (ix2 r (0 : Fin 1))
      = max (x1 (ix2 r (0 : Fin 1)) - Ideal.sqrt ((∑ d : Fin 512, v39 (ix2 r d) * v39 (ix2 r d)) + eps) + margin) 0 := by
  have hx : shapeCast S256x1 x1 Facts₀.shapeCasts_S256x1_S256x1 = x1 := shapeCast_self _ _
  have key : ∀ s b : EReal, max (b - Ideal.sqrt (s + eps) + margin) (Ideal.ofBits .f32 0x00000000#32)
      = max (b - Ideal.sqrt (s + eps) + margin) 0 := fun s b => by rw [Ideal.ofBits_zero_f32]
  refine Eq.trans ?_ (key _ _)
  unfold k0_pay12 k0_pay10
  exact congrArg₂ (fun s b : EReal => max (b - Ideal.sqrt (s + eps) + margin) (Ideal.ofBits .f32 0x00000000#32))
    (rowsum_apply (mulf v39 v39) r) (congrFun hx (ix2 r (0 : Fin 1)))

/-! ## Arrays of one element -/

/-- In a shape all of whose extents are 1 there is one index. -/
theorem idx_eq_of_unit {s : Shape} (hs : ∀ a, s.size a = 1) (j k : s.Idx) : j = k := by
  funext a
  apply Fin.ext
  have h1 := (j a).isLt
  have h2 := (k a).isLt
  have h3 := hs a
  omega

/-- A reshape of a one-element array reads its one element, whatever the two indices are called. -/
theorem shapeCast_unit_apply {s t : Shape} {α : Type} (hs : ∀ a, s.size a = 1) (x : s.Idx → α) (h : s.ShapeCasts t)
    (j : t.Idx) (k : s.Idx) : shapeCast t x h j = x k := by
  unfold shapeCast
  exact congrArg x (idx_eq_of_unit hs _ _)

theorem unit_S1 : ∀ a, S1.size a = 1 := by decide
theorem unit_S1x1 : ∀ a, S1x1.size a = 1 := by decide
theorem unit_S1x1x1 : ∀ a, S1x1x1.size a = 1 := by decide

/-- The sum down the one column of a [256, 1] array, as a one-element array: the sum of its 256 entries. -/
theorem colsum_apply (v : FVec Ideal S256x1 .f32) :
    multiReduction .add [0] S1 v 0x00000000#32 Facts₀.reduces_S256x1_S1 (.inl rfl) rfl (ix1 (0 : Fin 1))
      = ∑ r : Fin 256, v (ix2 r (0 : Fin 1)) := by
  refine (Ideal.multiReduction_add_single v 0x00000000#32 Facts₀.reduces_S256x1_S1 (.inl rfl) rfl (ix1 (0 : Fin 1))).trans ?_
  refine Finset.sum_congr rfl fun (r : Fin 256) _ => congrArg v ?_
  funext a
  apply Fin.ext
  match a with
  | ⟨0, _⟩ => rfl
  | ⟨1, _⟩ => rfl

/-! ## The tile's two sums -/

/-- The loss accumulator after the tile: what it held plus the sum over the rows of the two hinges. -/
theorem pay14_apply (v39 v40 : FVec Ideal S256x512 .f32) (x1 : FVec Ideal S256x1 .f32) (xo : FVec Ideal S1x1x1 .f32)
    (j : S1x1x1.Idx) :
    k0_pay14 (F := Ideal) v39 v40 x1 xo j
      = xo (ix3 (0 : Fin 1) (0 : Fin 1) (0 : Fin 1))
        + ∑ r : Fin 256, (k0_pay11 (F := Ideal) v40 x1 (ix2 r (0 : Fin 1)) + k0_pay12 (F := Ideal) v39 x1 (ix2 r (0 : Fin 1))) := by
  unfold k0_pay14
  refine (shapeCast_unit_apply unit_S1x1 _ _ j (ix2 (0 : Fin 1) (0 : Fin 1))).trans ?_
  refine (addf_apply _ _ _).trans ?_
  refine congrArg₂ (fun a b : EReal => a + b)
    (shapeCast_unit_apply unit_S1x1x1 xo _ (ix2 (0 : Fin 1) (0 : Fin 1)) (ix3 (0 : Fin 1) (0 : Fin 1) (0 : Fin 1))) ?_
  refine (shapeCast_unit_apply unit_S1 _ _ (ix2 (0 : Fin 1) (0 : Fin 1)) (ix1 (0 : Fin 1))).trans ?_
  exact colsum_apply (addf (k0_pay11 (F := Ideal) v40 x1) (k0_pay12 (F := Ideal) v39 x1))

/-- The number of active rows of the tile, as a one-element array. -/
theorem pay13_apply (v39 v40 : FVec Ideal S256x512 .f32) (x1 : FVec Ideal S256x1 .f32) (j : S1x1.Idx) :
    k0_pay13 (F := Ideal) v39 v40 x1 j
      = ∑ r : Fin 256, ((((IntOp.ori (Ideal.cmp .ogt (k0_pay11 (F := Ideal) v40 x1 (ix2 r (0 : Fin 1))) 0)
          (Ideal.cmp .ogt (k0_pay12 (F := Ideal) v39 x1 (ix2 r (0 : Fin 1))) 0)).setWidth 32).toInt : ℝ) : EReal) := by
  unfold k0_pay13
  refine (shapeCast_unit_apply unit_S1 _ _ j (ix1 (0 : Fin 1))).trans ?_
  refine (colsum_apply _).trans ?_
  refine Finset.sum_congr rfl fun (r : Fin 256) _ => ?_
  show ((((IntOp.ori (Ideal.cmp .ogt (k0_pay11 (F := Ideal) v40 x1 (ix2 r (0 : Fin 1))) (Ideal.ofBits .f32 0x00000000#32))
      (Ideal.cmp .ogt (k0_pay12 (F := Ideal) v39 x1 (ix2 r (0 : Fin 1))) (Ideal.ofBits .f32 0x00000000#32))).setWidth 32).toInt : ℝ) : EReal) = _
  rw [Ideal.ofBits_zero_f32]

/-- The count accumulator after the tile: what it held plus the tile's count. -/
theorem pay1_apply (v75 : FVec Ideal S1x1 .f32) (xo : FVec Ideal S1x1x1 .f32) (j : S1x1x1.Idx) :
    k0_pay1 (F := Ideal) v75 xo j = xo (ix3 (0 : Fin 1) (0 : Fin 1) (0 : Fin 1)) + v75 (ix2 (0 : Fin 1) (0 : Fin 1)) := by
  unfold k0_pay1
  refine (shapeCast_unit_apply unit_S1x1 _ _ j (ix2 (0 : Fin 1) (0 : Fin 1))).trans ?_
  refine (addf_apply _ _ _).trans ?_
  exact congrArg (fun a : EReal => a + v75 (ix2 (0 : Fin 1) (0 : Fin 1)))
    (shapeCast_unit_apply unit_S1x1x1 xo _ (ix2 (0 : Fin 1) (0 : Fin 1)) (ix3 (0 : Fin 1) (0 : Fin 1) (0 : Fin 1)))

/-- The two hinges of row r of the tile are the positive and the negative hinge of its triplet. -/
theorem hinges (x0 : Vec Ideal S256x3 .i32) (x1 : Vec Ideal S256x1 .f32) (x2 : Vec Ideal S8192x512 .bf16)
    (v36 : Vec Ideal S512x8192 .bf16) (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) (r : Fin 256) :
    k0_pay11 (F := Ideal) (k0_pay9 x2 v36) x1 (ix2 r (0 : Fin 1)) = posL (blkDiff x2 x0 r 1) (x1 (ix2 r (0 : Fin 1)))
    ∧ k0_pay12 (F := Ideal) (k0_pay8 x2 v36) x1 (ix2 r (0 : Fin 1)) = negL (blkDiff x2 x0 r 2) (x1 (ix2 r (0 : Fin 1))) := by
  constructor
  · rw [pay11_apply]
    unfold posL Cert.Triplet.dist
    simp only [pay9_apply x0 x2 v36 hst hrange hfin]
  · rw [pay12_apply]
    unfold negL Cert.Triplet.dist
    simp only [pay8_apply x0 x2 v36 hst hrange hfin]

/-- The tile's loss, added to what the accumulator held. -/
theorem tile_loss (x0 : Vec Ideal S256x3 .i32) (x1 : Vec Ideal S256x1 .f32) (x2 : Vec Ideal S8192x512 .bf16)
    (v36 : Vec Ideal S512x8192 .bf16) (xo : Vec Ideal S1x1x1 .f32) (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) :
    k0_pay14 (F := Ideal) (k0_pay8 x2 v36) (k0_pay9 x2 v36) x1 xo
      = fun _ => xo (ix3 (0 : Fin 1) (0 : Fin 1) (0 : Fin 1))
          + ∑ r : Fin 256, rowLoss (blkDiff x2 x0 r 1) (blkDiff x2 x0 r 2) (x1 (ix2 r (0 : Fin 1))) := by
  funext j
  refine (pay14_apply _ _ x1 xo j).trans ?_
  refine congrArg (fun s : EReal => xo (ix3 (0 : Fin 1) (0 : Fin 1) (0 : Fin 1)) + s) (Finset.sum_congr rfl fun r _ => ?_)
  have h := hinges x0 x1 x2 v36 hst hrange hfin r
  rw [h.1, h.2]
  rfl

/-- The tile's number of active triplets, added to what the accumulator held. -/
theorem tile_count (x0 : Vec Ideal S256x3 .i32) (x1 : Vec Ideal S256x1 .f32) (x2 : Vec Ideal S8192x512 .bf16)
    (v36 : Vec Ideal S512x8192 .bf16) (xo : Vec Ideal S1x1x1 .f32) (hst : Stacked x0 v36)
    (hrange : ∀ (r : Fin 256) (j : Fin 3), 0 ≤ (x0 (ix2 r j)).toInt ∧ (x0 (ix2 r j)).toInt < 8192)
    (hfin : ∀ i, ∃ e : ℝ, x2 i = ((e : ℝ) : EReal)) :
    k0_pay1 (F := Ideal) (k0_pay13 (k0_pay8 x2 v36) (k0_pay9 x2 v36) x1) xo
      = fun _ => xo (ix3 (0 : Fin 1) (0 : Fin 1) (0 : Fin 1))
          + ∑ r : Fin 256, rowFlag (blkDiff x2 x0 r 1) (blkDiff x2 x0 r 2) (x1 (ix2 r (0 : Fin 1))) := by
  funext j
  refine (pay1_apply _ xo j).trans ?_
  refine congrArg (fun s : EReal => xo (ix3 (0 : Fin 1) (0 : Fin 1) (0 : Fin 1)) + s) ?_
  refine (pay13_apply _ _ x1 _).trans (Finset.sum_congr rfl fun r _ => ?_)
  have h := hinges x0 x1 x2 v36 hst hrange hfin r
  rw [h.1, h.2]
  rfl

end Cert.KernelIdeal.TileValue

end
-- ==== Proof.KStack.lean ====
/-
  The scratch buffer read back whole after its two half stores holds, in rows 0..255, what the first store wrote
  (the anchor-minus-positive one-hot differences) and, in rows 256..511, what the second wrote (anchor minus
  negative): row 256 + r of the buffer is row r of the second store's block, row r < 256 lies outside that block and is
  row r of the first store's block.
-/
import proofs.«408964_j12395275616919_3_alg».proof.Proof.KPieces
import proofs.«408964_j12395275616919_3_alg».proof.Proof.TileValue

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

/-- The whole-buffer load reads index j at j. -/
theorem whole_idx (j : S512x8192.Idx) :
    (Rect.unit (s := S512x8192) ![0, 0] S512x8192.size inb_S512x8192_S512x8192_0_0).toLoadRect.idx j = j := by
  show (Rect.unit (s := S512x8192) ![0, 0] S512x8192.size inb_S512x8192_S512x8192_0_0).emb j = j
  have h := hz2
  funext a
  apply Fin.ext
  match a with
  | ⟨0, _⟩ => show 0 + 1 * (j 0).val = (j 0).val; omega
  | ⟨1, _⟩ => show 0 + 1 * (j 1).val = (j 1).val; omega

/-- Row 256 + r is row r of the second store's block. -/
theorem hi_emb (r : Fin 256) (k : Fin 8192) :
    (ix2 (⟨256 + r.val, by omega⟩ : Fin 512) k : S512x8192.Idx)
      = (Rect.unit (s := S512x8192) ![256, 0] S256x8192.size inb_S512x8192_S256x8192_256_0).emb (ix2 r k) := by
  funext a
  apply Fin.ext
  match a with
  | ⟨0, _⟩ => show 256 + r.val = 256 + 1 * r.val; omega
  | ⟨1, _⟩ => show k.val = 0 + 1 * k.val; omega

/-- Row r < 256 is row r of the first store's block. -/
theorem lo_emb (r : Fin 256) (k : Fin 8192) :
    (ix2 (⟨r.val, by omega⟩ : Fin 512) k : S512x8192.Idx)
      = (Rect.unit (s := S512x8192) ![0, 0] S256x8192.size inb_S512x8192_S256x8192_0_0).emb (ix2 r k) := by
  funext a
  apply Fin.ext
  match a with
  | ⟨0, _⟩ => show r.val = 0 + 1 * r.val; omega
  | ⟨1, _⟩ => show k.val = 0 + 1 * k.val; omega

/-- and lies outside the second store's block. -/
theorem lo_not_mem (r : Fin 256) (k : Fin 8192) :
    (ix2 (⟨r.val, by omega⟩ : Fin 512) k : S512x8192.Idx)
      ∉ (Rect.unit (s := S512x8192) ![256, 0] S256x8192.size inb_S512x8192_S256x8192_256_0).set := by
  rw [Rect.mem_set_unit]
  intro h
  have h0 := (h (0 : Fin 2)).1
  have : (256 : ℕ) ≤ r.val := h0
  omega

/-- The later store's piece and the earlier one. -/
abbrev pHi (x0 : Vec F S256x3 .i32) : View.Piece (Elt F) S512x8192 .bf16 :=
  ⟨Rect.unit (s := S512x8192) ![256, 0] S256x8192.size inb_S512x8192_S256x8192_256_0, k0_pay6 x0⟩
abbrev pLo (x0 : Vec F S256x3 .i32) : View.Piece (Elt F) S512x8192 .bf16 :=
  ⟨Rect.unit (s := S512x8192) ![0, 0] S256x8192.size inb_S512x8192_S256x8192_0_0, k0_pay5 x0⟩

theorem halves_eq (x0 : Vec F S256x3 .i32) : halves x0 = [pHi x0, pLo x0] := rfl

theorem stacked_lo (x0 : Vec F S256x3 .i32) (r : Fin 256) (k : Fin 8192) :
    stacked x0 (ix2 (⟨r.val, by omega⟩ : Fin 512) k) = k0_pay5 x0 (ix2 r k) := by
  unfold stacked
  rw [whole_idx, halves_eq]
  refine (View.canon_cons_of_not_mem (Val := Elt F) (s := S512x8192) (e := .bf16) (pHi x0) [pLo x0] (lo_not_mem r k)).trans ?_
  rw [lo_emb r k]
  exact View.canon_cons_emb (Val := Elt F) (s := S512x8192) (e := .bf16) (Rect.unit (s := S512x8192) ![0, 0] S256x8192.size inb_S512x8192_S256x8192_0_0) (k0_pay5 x0) [] (ix2 r k)

theorem stacked_hi (x0 : Vec F S256x3 .i32) (r : Fin 256) (k : Fin 8192) :
    stacked x0 (ix2 (⟨256 + r.val, by omega⟩ : Fin 512) k) = k0_pay6 x0 (ix2 r k) := by
  unfold stacked
  rw [whole_idx, halves_eq, hi_emb r k]
  exact View.canon_cons_emb (Val := Elt F) (s := S512x8192) (e := .bf16) (Rect.unit (s := S512x8192) ![256, 0] S256x8192.size inb_S512x8192_S256x8192_256_0) (k0_pay6 x0) [pLo x0] (ix2 r k)

/-- The read-back is the stacked matrix of the tile's one-hot differences. -/
theorem stacked_ok (x0 : Vec Ideal S256x3 .i32) : Cert.KernelIdeal.TileValue.Stacked x0 (stacked (F := Ideal) x0) :=
  ⟨fun r k => stacked_lo x0 r k, fun r k => stacked_hi x0 r k⟩

end Cert.KernelIdeal.Pieces

end
-- ==== Proof.KStep.lean ====
/-
  One step of the body over a tile, against the specification — stated for any blocks.

  If the triplet block's row r is triplet 256 t + r of a triplet list, the block of numbers b likewise, the table block
  is the table, every triplet entry names a table row and every table entry is a real number, then the step adds the
  specification's loss of tile t, respectively its count of active triplets, to what the accumulator held.
-/
import proofs.«408964_j12395275616919_3_alg».proof.Proof.KStack

noncomputable section

open Idealize.ShloMosaic Idealize.ShloMosaic.ValueIdx

namespace Cert.KernelIdeal.Step

open Cert.KernelIdeal Cert.KernelIdeal.Gen Cert.Triplet Cert.KernelIdeal.Pieces Cert.KernelIdeal.TileValue

section
variable (x0 : Vec Ideal S256x3 .i32) (x1 : Vec Ideal S256x1 .f32) (x2 : Vec Ideal S8192x512 .bf16)
  (E : (⟨2, ![8192, 512]⟩ : Shape).Idx → EReal) (trip : (⟨2, ![131072, 3]⟩ : Shape).Idx → BitVec 32) (bpt : Fin 131072 → EReal)
  (t : ℕ) (ht : t < 512)
  (h0 : ∀ (r : Fin 256) (j : Fin 3), x0 (ix2 r j) = trip (ix2 (tileRow t r.val ht r.isLt) j))
  (h1 : ∀ r : Fin 256, x1 (ix2 r (0 : Fin 1)) = bpt (tileRow t r.val ht r.isLt))
  (h2 : ∀ i, x2 i = E i)
  (hrange : ∀ (i : Fin 131072) (j : Fin 3), 0 ≤ (trip (ix2 i j)).toInt ∧ (trip (ix2 i j)).toInt < 8192)
  (hfin : ∀ i, ∃ e : ℝ, E i = ((e : ℝ) : EReal))

include h0 h2 in
theorem diff_eq (r : Fin 256) (col : Fin 3) :
    blkDiff x2 x0 r col = diffRow E trip (tileRow t r.val ht r.isLt) col := by
  funext d
  unfold blkDiff diffRow rowOf
  rw [h0 r 0, h0 r col, h2, h2]

include h0 hrange in
theorem blk_range (r : Fin 256) (j : Fin 3) : 0 ≤ (x0 (ix2 r j)).toInt ∧ (x0 (ix2 r j)).toInt < 8192 := by
  rw [h0 r j]; exact hrange _ j

include h2 hfin in
theorem blk_fin (i : S8192x512.Idx) : ∃ e : ℝ, x2 i = ((e : ℝ) : EReal) := by
  rw [h2 i]; exact hfin i

include h0 h1 h2 hrange hfin in
/-- The step adds the tile's loss. -/
theorem lossStep_eq (xo : Vec Ideal S1x1x1 .f32) :
    lossStep (F := Ideal) x0 x1 x2 xo
      = fun _ => xo (ix3 (0 : Fin 1) (0 : Fin 1) (0 : Fin 1)) + tileLoss E trip bpt t ht := by
  unfold lossStep
  refine (tile_loss x0 x1 x2 (stacked (F := Ideal) x0) xo (stacked_ok x0)
    (blk_range x0 trip t ht h0 hrange) (blk_fin x2 E h2 hfin)).trans ?_
  funext _
  congr 1
  unfold tileLoss lossAt
  refine Finset.sum_congr rfl fun r _ => ?_
  rw [diff_eq x0 x2 E trip t ht h0 h2 r 1, diff_eq x0 x2 E trip t ht h0 h2 r 2, h1 r]

include h0 h1 h2 hrange hfin in
/-- The step adds the tile's count. -/
theorem countStep_eq (xo : Vec Ideal S1x1x1 .f32) :
    countStep (F := Ideal) x0 x1 x2 xo
      = fun _ => xo (ix3 (0 : Fin 1) (0 : Fin 1) (0 : Fin 1)) + tileCount E trip bpt t ht := by
  unfold countStep
  refine (tile_count x0 x1 x2 (stacked (F := Ideal) x0) xo (stacked_ok x0)
    (blk_range x0 trip t ht h0 hrange) (blk_fin x2 E h2 hfin)).trans ?_
  funext _
  congr 1
  unfold tileCount flagAt
  refine Finset.sum_congr rfl fun r _ => ?_
  rw [diff_eq x0 x2 E trip t ht h0 h2 r 1, diff_eq x0 x2 E trip t ht h0 h2 r 2, h1 r]

end

/-- The zero blocks the first step of a half stores. -/
theorem pay2_zero (y : S1x1x1.Idx) : (k0_pay2 (F := Ideal)) y = 0 := by
  show Ideal.ofBits .f32 0x00000000#32 = 0
  exact Ideal.ofBits_zero_f32
theorem pay3_zero (y : S1x1x1.Idx) : (k0_pay3 (F := Ideal)) y = 0 := by
  show Ideal.ofBits .f32 0x00000000#32 = 0
  exact Ideal.ofBits_zero_f32

end Cert.KernelIdeal.Step

end
-- ==== Proof.KBlocks.lean ====
/-
  The blocks a grid point reads, as entries of the whole arrays.

  Point t of the 512 grid points (2 halves of 256) reads block t of the triplet list and of the per-triplet numbers b:
  rows  256 t .. 256 t + 255 ; the table it reads whole at every point. So row r of the point's triplet block is
  triplet  256 t + r , and likewise for b.
-/
import proofs.«408964_j12395275616919_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The block index of the triplet window at point t is (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The same for the window of the numbers b. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The table's window sits at block (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Row r, column j of the point's triplet block is triplet 256 t + r, column j. -/
theorem trip_blk (c : Dev nD) (t : Fin cfg0.N) (r : Fin 256) (j : Fin 3) (ht : t.val * 256 + r.val < 131072) :
    (iblk m c 0 t : Vec F S256x3 .i32) (ix2 r j)
      = (V m c main_arg2 : Vec F S131072x3 .i32) (ix2 (⟨t.val * 256 + r.val, ht⟩ : Fin 131072) j) := by
  unfold iblk
  rw [View.read_apply]
  show V m c main_arg2 _ = V m c main_arg2 _
  congr 1
  funext a
  apply Fin.ext
  match a with
  | ⟨0, _⟩ => show win0_0.index t 0 * 256 + 1 * r.val = t.val * 256 + r.val; rw [(idx0 t).1]; omega
  | ⟨1, _⟩ => show win0_0.index t 1 * 3 + 1 * j.val = j.val; rw [(idx0 t).2]; omega

/-- Row r of the point's block of numbers b is entry 256 t + r. -/
theorem beta_blk (c : Dev nD) (t : Fin cfg0.N) (r : Fin 256) (u : Fin 1) (ht : t.val * 256 + r.val < 131072) :
    (iblk m c 1 t : Vec F S256x1 .f32) (ix2 r u)
      = (V m c main_v16 : Vec F S131072x1 .f32) (ix2 (⟨t.val * 256 + r.val, ht⟩ : Fin 131072) u) := by
  unfold iblk
  rw [View.read_apply]
  show V m c main_v16 _ = V m c main_v16 _
  congr 1
  funext a
  apply Fin.ext
  match a with
  | ⟨0, _⟩ => show win0_1.index t 0 * 256 + 1 * r.val = t.val * 256 + r.val; rw [(idx1 t).1]; omega
  | ⟨1, _⟩ => show win0_1.index t 1 * 1 + 1 * u.val = u.val; rw [(idx1 t).2]; omega

/-- The point's table block is the whole table. -/
theorem table_blk (c : Dev nD) (t : Fin cfg0.N) (i : S8192x512.Idx) :
    (iblk m c 2 t : Vec F S8192x512 .bf16) i = (V m c main_v17 : Vec F S8192x512 .bf16) i := by
  unfold iblk
  rw [View.read_apply]
  show V m c main_v17 _ = V m c main_v17 _
  congr 1
  funext a
  apply Fin.ext
  match a with
  | ⟨0, _⟩ => show win0_2.index t 0 * 8192 + 1 * (i 0).val = (i 0).val; rw [(idx2 t).1]; omega
  | ⟨1, _⟩ => show win0_2.index t 1 * 512 + 1 * (i 1).val = (i 1).val; rw [(idx2 t).2]; omega

end Cert.KernelIdeal.Blocks

end
-- ==== Proof.SumLemmas.lean ====
/-
  Two facts about sums on the extended reals (any commutative monoid would do for the first).

  The 131072 triplets are 2 halves of 256 tiles of 256 triplets, so a sum over the triplets is the triple sum over
  (half, tile in the half, row in the tile), triplet  (half * 256 + tile) * 256 + row .
  An accumulator that is set to the first tile's value at the start of each half and adds one tile's value per step
  holds, after step j of half c, the sum of that half's tiles 0..j.
-/
import Mathlib.Data.EReal.Basic
import Mathlib.Algebra.BigOperators.Fin
import Mathlib.Algebra.BigOperators.Intervals

noncomputable section

open scoped BigOperators

namespace Cert.Triplet

/-- A sum over the 131072 triplets, regrouped by half, tile and row. -/
theorem sum_by_tiles {M : Type*} [AddCommMonoid M] (f : Fin 131072 → M) :
    ∑ i : Fin 131072, f i
      = ∑ c : Fin 2, ∑ t : Fin 256, ∑ r : Fin 256,
          f ⟨(c.val * 256 + t.val) * 256 + r.val, by have := c.isLt; have := t.isLt; have := r.isLt; omega⟩ := by
  -- the bijection (half, (tile, row)) ↦ row + 256 * tile + 65536 * half
  let e : Fin 2 × Fin 256 × Fin 256 ≃ Fin 131072 :=
    ((Equiv.prodCongr (Equiv.refl (Fin 2)) (finProdFinEquiv (m := 256) (n := 256))).trans
      (finProdFinEquiv (m := 2) (n := 256 * 256))).trans (finCongr (by norm_num))
  rw [← e.sum_comp, Fintype.sum_prod_type]
  refine Finset.sum_congr rfl fun c _ => ?_
  rw [Fintype.sum_prod_type]
  refine Finset.sum_congr rfl fun t _ => Finset.sum_congr rfl fun r _ => ?_
  congr 1
  apply Fin.ext
  have hc := c.isLt
  have ht := t.isLt
  have hr := r.isLt
  simp [e, finProdFinEquiv]
  omega

/-- The running sum of a half's tiles: reset at the half's first step, one tile added per later step. -/
theorem acc_closed {M : Type*} [AddCommMonoid M] (tile acc : ℕ → M)
    (h0 : ∀ n, n % 256 = 0 → acc n = tile n)
    (hs : ∀ n, (n + 1) % 256 ≠ 0 → acc (n + 1) = acc n + tile (n + 1))
    (c j : ℕ) (hj : j < 256) :
    acc (256 * c + j) = ∑ t ∈ Finset.range (j + 1), tile (256 * c + t) := by
  induction j with
  | zero =>
    have h := h0 (256 * c) (Nat.mul_mod_right 256 c)
    simpa using h
  | succ j ih =>
    have hne : (256 * c + j + 1) % 256 ≠ 0 := by omega
    have hstep := hs (256 * c + j) hne
    rw [Finset.sum_range_succ, ← ih (by omega)]
    exact hstep

/-- The same over `Fin 256`, for the half's last step. -/
theorem acc_last {M : Type*} [AddCommMonoid M] (tile acc : ℕ → M)
    (h0 : ∀ n, n % 256 = 0 → acc n = tile n)
    (hs : ∀ n, (n + 1) % 256 ≠ 0 → acc (n + 1) = acc n + tile (n + 1)) (c : ℕ) :
    acc (256 * c + 255) = ∑ t : Fin 256, tile (256 * c + t.val) := by
  rw [acc_closed tile acc h0 hs c 255 (by norm_num)]
  exact (Fin.sum_univ_eq_sum_range (fun t => tile (256 * c + t)) 256).symm

end Cert.Triplet

end
-- ==== Proof.KAccum.lean ====
/-
  The two accumulators, step by step, are running sums of the tiles' losses and counts.

  Step t of the grid handles tile t: triplets 256 t .. 256 t + 255. Under the hypotheses that every triplet entry
  names a table row and every table entry is a real number, one step adds the tile's loss (the sum over its 256
  triplets of the specification's per-triplet loss) to the loss accumulator and the tile's count of active triplets
  to the count accumulator; the first step of each half of the grid starts both from zero. So after the last step of
  a half each accumulator holds the sum over that half's 256 tiles, and the two entries of each result array
  together sum to the specification's total, respectively its count.
-/
import proofs.«408964_j12395275616919_3_alg».proof.Proof.KStep
import proofs.«408964_j12395275616919_3_alg».proof.Proof.KBlocks
import proofs.«408964_j12395275616919_3_alg».proof.Proof.SumLemmas
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Accum

open Cert.KernelIdeal Cert.KernelIdeal.Gen Cert.Triplet Cert.KernelIdeal.Pieces Cert.KernelIdeal.Blocks

variable (m : (ℓ : Loc nD τ sig) → Buf (Elt Ideal) ℓ)

theorem hN : cfg0.N = 512 := N_0

/-- The triplet list, the table and the column of numbers b as the region finds them. -/
abbrev tripA (c : Dev nD) : Vec Ideal S131072x3 .i32 := V m c main_arg2
abbrev tabA (c : Dev nD) : Vec Ideal S8192x512 .bf16 := V m c main_v17
abbrev betaA (c : Dev nD) : Vec Ideal S131072x1 .f32 := V m c main_v16
/-- The number b of triplet i. -/
def bptA (c : Dev nD) : Fin 131072 → EReal := fun i => betaA m c (ix2 i (0 : Fin 1))

/-- The two hypotheses: triplet entries name table rows, table entries are real numbers. -/
structure Good (c : Dev nD) : Prop where
  range : ∀ (i : Fin 131072) (j : Fin 3), 0 ≤ (tripA m c (ix2 i j)).toInt ∧ (tripA m c (ix2 i j)).toInt < 8192
  fin : ∀ i, ∃ e : ℝ, tabA m c i = ((e : ℝ) : EReal)

theorem row_lt (t : Fin cfg0.N) (r : Fin 256) : t.val * 256 + r.val < 131072 := by
  have := lt_of_lt_of_eq t.isLt hN; have := r.isLt; omega

/-- One step at point t adds tile t's loss … -/
theorem loss_at (c : Dev nD) (hg : Good m c) (t : Fin cfg0.N) (xo : Vec Ideal S1x1x1 .f32) :
    lossStep (F := Ideal) (iblk m c 0 t) (iblk m c 1 t) (iblk m c 2 t) xo
      = fun _ => xo (ix3 (0 : Fin 1) (0 : Fin 1) (0 : Fin 1))
          + tileLoss (tabA m c) (tripA m c) (bptA m c) t.val (lt_of_lt_of_eq t.isLt hN) :=
  Step.lossStep_eq (iblk m c 0 t) (iblk m c 1 t) (iblk m c 2 t) (tabA m c) (tripA m c) (bptA m c) t.val
    (lt_of_lt_of_eq t.isLt hN) (fun r j => trip_blk m c t r j (row_lt t r)) (fun r => beta_blk m c t r 0 (row_lt t r))
    (fun i => table_blk m c t i) hg.range hg.fin xo

/-- … and its count. -/
theorem count_at (c : Dev nD) (hg : Good m c) (t : Fin cfg0.N) (xo : Vec Ideal S1x1x1 .f32) :
    countStep (F := Ideal) (iblk m c 0 t) (iblk m c 1 t) (iblk m c 2 t) xo
      = fun _ => xo (ix3 (0 : Fin 1) (0 : Fin 1) (0 : Fin 1))
          + tileCount (tabA m c) (tripA m c) (bptA m c) t.val (lt_of_lt_of_eq t.isLt hN) :=
  Step.countStep_eq (iblk m c 0 t) (iblk m c 1 t) (iblk m c 2 t) (tabA m c) (tripA m c) (bptA m c) t.val
    (lt_of_lt_of_eq t.isLt hN) (fun r j => trip_blk m c t r j (row_lt t r)) (fun r => beta_blk m c t r 0 (row_lt t r))
    (fun i => table_blk m c t i) hg.range hg.fin xo

/-- What the accumulators hold after a first step of a half … -/
theorem out1_A (c : Dev nD) (t : Fin cfg0.N) (h0 : t.val % 256 = 0) :
    (outsAt0 m c t.val t.isLt).1
      = lossStep (F := Ideal) (iblk m c 0 t) (iblk m c 1 t) (iblk m c 2 t) (k0_pay2 (F := Ideal)) := by
  rw [outsAt0_A m c t h0]
  dsimp only
  exact out_A_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t)
theorem out2_A (c : Dev nD) (t : Fin cfg0.N) (h0 : t.val % 256 = 0) :
    (outsAt0 m c t.val t.isLt).2
      = countStep (F := Ideal) (iblk m c 0 t) (iblk m c 1 t) (iblk m c 2 t) (k0_pay3 (F := Ideal)) := by
  rw [outsAt0_A m c t h0]
  dsimp only
  exact out_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) ((hcond0_0 t).mpr h0) (iblk m c 0 t) (iblk m c 1 t) (iblk m c 2 t)

/-- … and after any other step, over what the step before left. -/
theorem out1_B (c : Dev nD) (t : Fin cfg0.N) (h0 : ¬t.val % 256 = 0) :
    (outsAt0 m c t.val t.isLt).1
      = lossStep (F := Ideal) (iblk m c 0 t) (iblk m c 1 t) (iblk m c 2 t) (outsAt0 m c (t.val - 1) (Nat.lt_of_le_of_lt (Nat.sub_le _ _) t.isLt)).1 := by
  rw [outsAt0_B m c t h0]
  dsimp only
  exact out_B_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2
theorem out2_B (c : Dev nD) (t : Fin cfg0.N) (h0 : ¬t.val % 256 = 0) :
    (outsAt0 m c t.val t.isLt).2
      = countStep (F := Ideal) (iblk m c 0 t) (iblk m c 1 t) (iblk m c 2 t) (outsAt0 m c (t.val - 1) (Nat.lt_of_le_of_lt (Nat.sub_le _ _) t.isLt)).2 := by
  rw [outsAt0_B m c t h0]
  dsimp only
  exact out_B_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2

end Cert.KernelIdeal.Accum

end
-- ==== Proof.KSums.lean ====
/-
  From the steps to the result arrays: after the last step of a half of the grid each accumulator holds the sum over
  the half's 256 tiles; the two entries of the loss array sum to the specification's total, those of the count array
  to its count.
-/
import proofs.«408964_j12395275616919_3_alg».proof.Proof.KAccum

noncomputable section

open Idealize.ShloMosaic Idealize.ShloMosaic.TcCoe Idealize.SL.Sem Idealize.ShloMosaic.ValueIdx

namespace Cert.KernelIdeal.Accum

open Cert.KernelIdeal Cert.KernelIdeal.Gen Cert.Triplet Cert.KernelIdeal.Pieces Cert.KernelIdeal.Blocks

variable (m : (ℓ : Loc nD τ sig) → Buf (Elt Ideal) ℓ)

/-- The accumulators' one entry after step n (0 past the grid), and tile n's loss and count (0 past the grid). -/
def accL (c : Dev nD) (n : ℕ) : EReal :=
  if h : n < cfg0.N then (outsAt0 m c n h).1 (ix3 (0 : Fin 1) (0 : Fin 1) (0 : Fin 1)) else 0
def accC (c : Dev nD) (n : ℕ) : EReal :=
  if h : n < cfg0.N then (outsAt0 m c n h).2 (ix3 (0 : Fin 1) (0 : Fin 1) (0 : Fin 1)) else 0
def tileL (c : Dev nD) (n : ℕ) : EReal :=
  if h : n < 512 then tileLoss (tabA m c) (tripA m c) (bptA m c) n h else 0
def tileC (c : Dev nD) (n : ℕ) : EReal :=
  if h : n < 512 then tileCount (tabA m c) (tripA m c) (bptA m c) n h else 0

theorem accL_first (c : Dev nD) (hg : Good m c) (n : ℕ) (h0 : n % 256 = 0) : accL m c n = tileL m c n := by
  unfold accL tileL
  by_cases hn : n < cfg0.N
  · have hn' : n < 512 := lt_of_lt_of_eq hn hN
    rw [dif_pos hn, dif_pos hn']
    have e1 := (out1_A m c ⟨n, hn⟩ h0).trans (loss_at m c hg ⟨n, hn⟩ (k0_pay2 (F := Ideal)))
    refine (congrFun e1 _).trans ?_
    rw [Step.pay2_zero, zero_add]
  · have hn' : ¬ n < 512 := fun h => hn (lt_of_lt_of_eq h hN.symm)
    rw [dif_neg hn, dif_neg hn']

theorem accC_first (c : Dev nD) (hg : Good m c) (n : ℕ) (h0 : n % 256 = 0) : accC m c n = tileC m c n := by
  unfold accC tileC
  by_cases hn : n < cfg0.N
  · have hn' : n < 512 := lt_of_lt_of_eq hn hN
    rw [dif_pos hn, dif_pos hn']
    have e1 := (out2_A m c ⟨n, hn⟩ h0).trans (count_at m c hg ⟨n, hn⟩ (k0_pay3 (F := Ideal)))
    refine (congrFun e1 _).trans ?_
    rw [Step.pay3_zero, zero_add]
  · have hn' : ¬ n < 512 := fun h => hn (lt_of_lt_of_eq h hN.symm)
    rw [dif_neg hn, dif_neg hn']

theorem accL_next (c : Dev nD) (hg : Good m c) (n : ℕ) (h0 : (n + 1) % 256 ≠ 0) :
    accL m c (n + 1) = accL m c n + tileL m c (n + 1) := by
  unfold accL tileL
  by_cases hn : n + 1 < cfg0.N
  · have hn' : n + 1 < 512 := lt_of_lt_of_eq hn hN
    have hn0 : n < cfg0.N := Nat.lt_of_succ_lt hn
    rw [dif_pos hn, dif_pos hn', dif_pos hn0]
    have e1 := (out1_B m c ⟨n + 1, hn⟩ h0).trans (loss_at m c hg ⟨n + 1, hn⟩ _)
    exact congrFun e1 _
  · have hn' : ¬ n + 1 < 512 := fun h => hn (lt_of_lt_of_eq h hN.symm)
    have hn0 : ¬ n < cfg0.N := fun h => by have := lt_of_lt_of_eq h hN; omega
    rw [dif_neg hn, dif_neg hn', dif_neg hn0, add_zero]

theorem accC_next (c : Dev nD) (hg : Good m c) (n : ℕ) (h0 : (n + 1) % 256 ≠ 0) :
    accC m c (n + 1) = accC m c n + tileC m c (n + 1) := by
  unfold accC tileC
  by_cases hn : n + 1 < cfg0.N
  · have hn' : n + 1 < 512 := lt_of_lt_of_eq hn hN
    have hn0 : n < cfg0.N := Nat.lt_of_succ_lt hn
    rw [dif_pos hn, dif_pos hn', dif_pos hn0]
    have e1 := (out2_B m c ⟨n + 1, hn⟩ h0).trans (count_at m c hg ⟨n + 1, hn⟩ _)
    exact congrFun e1 _
  · have hn' : ¬ n + 1 < 512 := fun h => hn (lt_of_lt_of_eq h hN.symm)
    have hn0 : ¬ n < cfg0.N := fun h => by have := lt_of_lt_of_eq h hN; omega
    rw [dif_neg hn, dif_neg hn', dif_neg hn0, add_zero]

/-- After the last step of half h each accumulator holds the sum over the half's 256 tiles. -/
theorem accL_last (c : Dev nD) (hg : Good m c) (h : ℕ) :
    accL m c (256 * h + 255) = ∑ t : Fin 256, tileL m c (256 * h + t.val) :=
  acc_last (tileL m c) (accL m c) (accL_first m c hg) (accL_next m c hg) h
theorem accC_last (c : Dev nD) (hg : Good m c) (h : ℕ) :
    accC m c (256 * h + 255) = ∑ t : Fin 256, tileC m c (256 * h + t.val) :=
  acc_last (tileC m c) (accC m c) (accC_first m c hg) (accC_next m c hg) h

/-- What the two result arrays end holding: per half, the accumulator after the half's last step. -/
def resL (c : Dev nD) : Vec Ideal S2x1x1 .f32 := fun i => accL m c (256 * (i 0).val + 255)
def resC (c : Dev nD) : Vec Ideal S2x1x1 .f32 := fun i => accC m c (256 * (i 0).val + 255)

/-- The two entries of the loss array sum to the specification's total. -/
theorem sum_resL (c : Dev nD) (hg : Good m c) :
    ∑ h : Fin 2, resL m c (ix3 h (0 : Fin 1) (0 : Fin 1)) = total (tabA m c) (tripA m c) (bptA m c) := by
  unfold total
  rw [sum_by_tiles]
  refine Finset.sum_congr rfl fun h _ => ?_
  show accL m c (256 * h.val + 255) = _
  rw [accL_last m c hg h.val]
  refine Finset.sum_congr rfl fun t _ => ?_
  have ht : 256 * h.val + t.val < 512 := by have := h.isLt; have := t.isLt; omega
  unfold tileL
  rw [dif_pos ht]
  unfold tileLoss
  refine Finset.sum_congr rfl fun r _ => ?_
  congr 1
  apply Fin.ext
  show (256 * h.val + t.val) * 256 + r.val = (h.val * 256 + t.val) * 256 + r.val
  omega

/-- The two entries of the count array sum to the specification's count. -/
theorem sum_resC (c : Dev nD) (hg : Good m c) :
    ∑ h : Fin 2, resC m c (ix3 h (0 : Fin 1) (0 : Fin 1)) = Cert.Triplet.count (tabA m c) (tripA m c) (bptA m c) := by
  unfold Cert.Triplet.count
  rw [sum_by_tiles]
  refine Finset.sum_congr rfl fun h _ => ?_
  show accC m c (256 * h.val + 255) = _
  rw [accC_last m c hg h.val]
  refine Finset.sum_congr rfl fun t _ => ?_
  have ht : 256 * h.val + t.val < 512 := by have := h.isLt; have := t.isLt; omega
  unfold tileC
  rw [dif_pos ht]
  unfold tileCount
  refine Finset.sum_congr rfl fun r _ => ?_
  congr 1
  apply Fin.ext
  show (256 * h.val + t.val) * 256 + r.val = (h.val * 256 + t.val) * 256 + r.val
  omega

theorem one_idx (y : S1x1x1.Idx) : y = ix3 (0 : Fin 1) (0 : Fin 1) (0 : Fin 1) := by
  funext a; apply Fin.ext
  match a with
  | ⟨0, _⟩ => have h1 : (y 0).val < 1 := (y 0).isLt; show (y 0).val = 0; omega
  | ⟨1, _⟩ => have h1 : (y 1).val < 1 := (y 1).isLt; show (y 1).val = 0; omega
  | ⟨2, _⟩ => have h1 : (y 2).val < 1 := (y 2).isLt; show (y 2).val = 0; omega

/-- At a half's last step the accumulators hold the result arrays' entries of that half. -/
theorem outs_last1 (c : Dev nD) (t : Fin cfg0.N) (h255 : t.val % 256 = 255) :
    (outsAt0 m c t.val t.isLt).1 = (fun _ => accL m c (256 * (t.val / 256) + 255)) := by
  have e : 256 * (t.val / 256) + 255 = t.val := by omega
  rw [e]
  unfold accL
  rw [dif_pos t.isLt]
  funext y
  rw [one_idx y]
theorem outs_last2 (c : Dev nD) (t : Fin cfg0.N) (h255 : t.val % 256 = 255) :
    (outsAt0 m c t.val t.isLt).2 = (fun _ => accC m c (256 * (t.val / 256) + 255)) := by
  have e : 256 * (t.val / 256) + 255 = t.val := by omega
  rw [e]
  unfold accC
  rw [dif_pos t.isLt]
  funext y
  rw [one_idx y]

end Cert.KernelIdeal.Accum

end
-- ==== Proof.KFinal.lean ====
/-
  The two result arrays after the region: one entry per half of the grid.

  Each accumulator is written back to its result array twice, after the last step of each half (steps 255 and 511),
  into entry (half, 0, 0). So if R names, for each half, what the accumulator holds after that half's last step, the
  result array ends holding R.
-/
import proofs.«408964_j12395275616919_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable {F : FTy → Type} [FloatOps F]
variable (m : (ℓ : Loc nD τ sig) → Buf (Elt F) ℓ)

/-- The half of the grid a point lies in. -/
def half (t : Fin cfg0.N) : Fin 2 :=
  ⟨t.val / 256, by have h : t.val < 512 := lt_of_lt_of_eq t.isLt (show cfg0.N = 512 from N_0); omega⟩

/-- The block index of window 3 at a point: the point's half on axis 0, 0 on the two unit axes. -/
theorem idx3 : ∀ t : Fin cfg0.N, win0_3.index t (0 : Fin 3) = t.val / 256 ∧ win0_3.index t (1 : Fin 3) = 0 ∧ win0_3.index t (2 : Fin 3) = 0 :=
  (by decide +kernel : ∀ t : Fin grid0.N, win0_3.index t (0 : Fin 3) = t.val / 256 ∧ win0_3.index t (1 : Fin 3) = 0 ∧ win0_3.index t (2 : Fin 3) = 0)

/-- What a write-back of window 3 writes is its block of R: the block at a point is the one entry (half, 0, 0). -/
theorem flushed3 (c : Dev nD) (R : Vec F S2x1x1 .f32)
    (hR : ∀ (t : Fin cfg0.N), t.val % 256 = 255 →
      (outsAt0 m c t.val t.isLt).1 = fun _ => R (ix3 (half t) (0 : Fin 1) (0 : Fin 1)))
    (t : Fin cfg0.N) (hf : (cfg0.win 3).flush t = true) :
    (dats m 0 c).flushed 3 t = ((cfg0.win 3).blk t).view.read (Elt F) R := by
  show (cfg0.win 3).cut (grid0.coords t) ((dats m 0 c).after 3 t) = _
  rw [after0_3, hR t ((flush0_3 t).mp hf)]
  funext y
  rw [View.read_apply]
  show R (ix3 (half t) 0 0) = R (((cfg0.win 3).blk t).view.emb y)
  refine congrArg R ?_
  funext a
  refine Fin.ext ?_
  obtain ⟨h0, h1, h2⟩ := idx3 t
  -- a coordinate of the block's entry in the array: block index times block size plus the coordinate inside the block
  match a with
  | ⟨0, _⟩ =>
    have hy : (y 0).val < 1 := (y 0).isLt
    show t.val / 256 = win0_3.index t 0 * win0_3.size 0 + 1 * (y 0).val
    rw [h0, show win0_3.size 0 = 1 from rfl]; omega
  | ⟨1, _⟩ =>
    have hy : (y 1).val < 1 := (y 1).isLt
    show 0 = win0_3.index t 1 * win0_3.size 1 + 1 * (y 1).val
    rw [h1]; omega
  | ⟨2, _⟩ =>
    have hy : (y 2).val < 1 := (y 2).isLt
    show 0 = win0_3.index t 2 * win0_3.size 2 + 1 * (y 2).val
    rw [h2]; omega

/-- The loss array ends holding, per half, what the loss accumulator held after the half's last step. -/
theorem final3 (c : Dev nD) (R : Vec F S2x1x1 .f32)
    (hR : ∀ (t : Fin cfg0.N), t.val % 256 = 255 →
      (outsAt0 m c t.val t.isLt).1 = fun _ => R (ix3 (half t) (0 : Fin 1) (0 : Fin 1))) :
    (dats m 0 c).arrAt 3 cfg0.N = R := by
  have hN : cfg0.N = 512 := N_0
  refine (dats m 0 c).arrAt_eq_of_cover 3 R (flushed3 m c R hR) fun i => ?_
  -- entry (k, 0, 0) is written back at the last point of half k
  have hi0 : (i 0 : Nat) < 2 := (i 0).isLt
  have hi1 : (i 1 : Nat) < 1 := (i 1).isLt
  have hi2 : (i 2 : Nat) < 1 := (i 2).isLt
  have hlt : 256 * (i 0 : Nat) + 255 < cfg0.N := by rw [hN]; omega
  refine ⟨⟨256 * (i 0 : Nat) + 255, hlt⟩, (flush0_3 _).mpr (by show (256 * (i 0 : Nat) + 255) % 256 = 255; omega), ?_⟩
  show i ∈ ((View.whole main_v18_0).slice (win0_3.rect ⟨256 * (i 0 : Nat) + 255, hlt⟩)).set
  rw [View.set_slice_whole, Rect.mem_set_unit]
  obtain ⟨h0, h1, h2⟩ := idx3 ⟨256 * (i 0 : Nat) + 255, hlt⟩
  intro a
  match a with
  | ⟨0, _⟩ =>
    show win0_3.index ⟨256 * (i 0 : Nat) + 255, hlt⟩ 0 * win0_3.size 0 ≤ (i 0 : Nat)
      ∧ (i 0 : Nat) < win0_3.index ⟨256 * (i 0 : Nat) + 255, hlt⟩ 0 * win0_3.size 0 + win0_3.xsize (grid0.coords ⟨256 * (i 0 : Nat) + 255, hlt⟩) 0
    rw [h0, show win0_3.size 0 = 1 from rfl, show win0_3.xsize (grid0.coords ⟨256 * (i 0 : Nat) + 255, hlt⟩) 0 = 1 from rfl]
    dsimp only
    omega
  | ⟨1, _⟩ =>
    show win0_3.index ⟨256 * (i 0 : Nat) + 255, hlt⟩ 1 * win0_3.size 1 ≤ (i 1 : Nat)
      ∧ (i 1 : Nat) < win0_3.index ⟨256 * (i 0 : Nat) + 255, hlt⟩ 1 * win0_3.size 1 + win0_3.xsize (grid0.coords ⟨256 * (i 0 : Nat) + 255, hlt⟩) 1
    rw [h1, show win0_3.xsize (grid0.coords ⟨256 * (i 0 : Nat) + 255, hlt⟩) 1 = 1 from rfl]
    omega
  | ⟨2, _⟩ =>
    show win0_3.index ⟨256 * (i 0 : Nat) + 255, hlt⟩ 2 * win0_3.size 2 ≤ (i 2 : Nat)
      ∧ (i 2 : Nat) < win0_3.index ⟨256 * (i 0 : Nat) + 255, hlt⟩ 2 * win0_3.size 2 + win0_3.xsize (grid0.coords ⟨256 * (i 0 : Nat) + 255, hlt⟩) 2
    rw [h2, show win0_3.xsize (grid0.coords ⟨256 * (i 0 : Nat) + 255, hlt⟩) 2 = 1 from rfl]
    omega

/-- The block index of window 4 at a point: the point's half on axis 0, 0 on the two unit axes. -/
theorem idx4 : ∀ t : Fin cfg0.N, win0_4.index t (0 : Fin 3) = t.val / 256 ∧ win0_4.index t (1 : Fin 3) = 0 ∧ win0_4.index t (2 : Fin 3) = 0 :=
  (by decide +kernel : ∀ t : Fin grid0.N, win0_4.index t (0 : Fin 3) = t.val / 256 ∧ win0_4.index t (1 : Fin 3) = 0 ∧ win0_4.index t (2 : Fin 3) = 0)

/-- What a write-back of window 4 writes is its block of R: the block at a point is the one entry (half, 0, 0). -/
theorem flushed4 (c : Dev nD) (R : Vec F S2x1x1 .f32)
    (hR : ∀ (t : Fin cfg0.N), t.val % 256 = 255 →
      (outsAt0 m c t.val t.isLt).2 = fun _ => R (ix3 (half t) (0 : Fin 1) (0 : Fin 1)))
    (t : Fin cfg0.N) (hf : (cfg0.win 4).flush t = true) :
    (dats m 0 c).flushed 4 t = ((cfg0.win 4).blk t).view.read (Elt F) R := by
  show (cfg0.win 4).cut (grid0.coords t) ((dats m 0 c).after 4 t) = _
  rw [after0_4, hR t ((flush0_4 t).mp hf)]
  funext y
  rw [View.read_apply]
  show R (ix3 (half t) 0 0) = R (((cfg0.win 4).blk t).view.emb y)
  refine congrArg R ?_
  funext a
  refine Fin.ext ?_
  obtain ⟨h0, h1, h2⟩ := idx4 t
  -- a coordinate of the block's entry in the array: block index times block size plus the coordinate inside the block
  match a with
  | ⟨0, _⟩ =>
    have hy : (y 0).val < 1 := (y 0).isLt
    show t.val / 256 = win0_4.index t 0 * win0_4.size 0 + 1 * (y 0).val
    rw [h0, show win0_4.size 0 = 1 from rfl]; omega
  | ⟨1, _⟩ =>
    have hy : (y 1).val < 1 := (y 1).isLt
    show 0 = win0_4.index t 1 * win0_4.size 1 + 1 * (y 1).val
    rw [h1]; omega
  | ⟨2, _⟩ =>
    have hy : (y 2).val < 1 := (y 2).isLt
    show 0 = win0_4.index t 2 * win0_4.size 2 + 1 * (y 2).val
    rw [h2]; omega

/-- The count array likewise. -/
theorem final4 (c : Dev nD) (R : Vec F S2x1x1 .f32)
    (hR : ∀ (t : Fin cfg0.N), t.val % 256 = 255 →
      (outsAt0 m c t.val t.isLt).2 = fun _ => R (ix3 (half t) (0 : Fin 1) (0 : Fin 1))) :
    (dats m 0 c).arrAt 4 cfg0.N = R := by
  have hN : cfg0.N = 512 := N_0
  refine (dats m 0 c).arrAt_eq_of_cover 4 R (flushed4 m c R hR) fun i => ?_
  -- entry (k, 0, 0) is written back at the last point of half k
  have hi0 : (i 0 : Nat) < 2 := (i 0).isLt
  have hi1 : (i 1 : Nat) < 1 := (i 1).isLt
  have hi2 : (i 2 : Nat) < 1 := (i 2).isLt
  have hlt : 256 * (i 0 : Nat) + 255 < cfg0.N := by rw [hN]; omega
  refine ⟨⟨256 * (i 0 : Nat) + 255, hlt⟩, (flush0_4 _).mpr (by show (256 * (i 0 : Nat) + 255) % 256 = 255; omega), ?_⟩
  show i ∈ ((View.whole main_v18_1).slice (win0_4.rect ⟨256 * (i 0 : Nat) + 255, hlt⟩)).set
  rw [View.set_slice_whole, Rect.mem_set_unit]
  obtain ⟨h0, h1, h2⟩ := idx4 ⟨256 * (i 0 : Nat) + 255, hlt⟩
  intro a
  match a with
  | ⟨0, _⟩ =>
    show win0_4.index ⟨256 * (i 0 : Nat) + 255, hlt⟩ 0 * win0_4.size 0 ≤ (i 0 : Nat)
      ∧ (i 0 : Nat) < win0_4.index ⟨256 * (i 0 : Nat) + 255, hlt⟩ 0 * win0_4.size 0 + win0_4.xsize (grid0.coords ⟨256 * (i 0 : Nat) + 255, hlt⟩) 0
    rw [h0, show win0_4.size 0 = 1 from rfl, show win0_4.xsize (grid0.coords ⟨256 * (i 0 : Nat) + 255, hlt⟩) 0 = 1 from rfl]
    dsimp only
    omega
  | ⟨1, _⟩ =>
    show win0_4.index ⟨256 * (i 0 : Nat) + 255, hlt⟩ 1 * win0_4.size 1 ≤ (i 1 : Nat)
      ∧ (i 1 : Nat) < win0_4.index ⟨256 * (i 0 : Nat) + 255, hlt⟩ 1 * win0_4.size 1 + win0_4.xsize (grid0.coords ⟨256 * (i 0 : Nat) + 255, hlt⟩) 1
    rw [h1, show win0_4.xsize (grid0.coords ⟨256 * (i 0 : Nat) + 255, hlt⟩) 1 = 1 from rfl]
    omega
  | ⟨2, _⟩ =>
    show win0_4.index ⟨256 * (i 0 : Nat) + 255, hlt⟩ 2 * win0_4.size 2 ≤ (i 2 : Nat)
      ∧ (i 2 : Nat) < win0_4.index ⟨256 * (i 0 : Nat) + 255, hlt⟩ 2 * win0_4.size 2 + win0_4.xsize (grid0.coords ⟨256 * (i 0 : Nat) + 255, hlt⟩) 2
    rw [h2, show win0_4.xsize (grid0.coords ⟨256 * (i 0 : Nat) + 255, hlt⟩) 2 = 1 from rfl]
    omega

end Cert.KernelIdeal.Final

end
-- ==== Proof.KHost.lean ====
/-
  The host operations around the kernel's one region.

  Before the region the program computes, per triplet, the number b (the anchor's class looked up in the class list,
  a negative index wrapped, then b looked up by class, again wrapped) and re-types the table; after it, it sums each
  of the two accumulator arrays (one entry per half of the grid), and returns the total when the count is zero and
  the total divided by  max count 1  otherwise.
-/
import proofs.«408964_j12395275616919_3_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.HostSide

open Cert.KernelIdeal Cert.KernelIdeal.Gen

variable {F : FTy → Type} [FloatOps F]
variable (m : (ℓ : Loc nD τ sig) → Buf (Elt F) ℓ)

/-- Column 0 of the triplet list (the anchors), as a vector. -/
def col0 (x2 : IVec S131072x3 32) : IVec S131072 32 :=
  shapeCast S131072 (extractStridedSlice S131072x1 ![0, 0] x2 slices_S131072x3_S131072x1_0_0) shapeCasts_S131072x1_S131072
/-- A negative index counts from the end of an axis of extent n. -/
def wrap (n : BitVec 32) (v : IVec S131072 32) : IVec S131072 32 :=
  select (cmpi .slt v (broadcastInDim S131072 ![] bcast_S_S131072 (constantI S_ 32 0#32)))
    (addi v (broadcastInDim S131072 ![] bcast_S_S131072 (constantI S_ 32 n))) v
/-- Each triplet's anchor's class. -/
def classOf (x1 : IVec S8192 32) (x2 : IVec S131072x3 32) : IVec S131072 32 :=
  Host.gather gather_S8192_S131072x1_S131072_n_0_n_n_0_1_1 x1
    (broadcastInDim S131072x1 ![0] bcast_S131072_S131072x1_0 (wrap 8192#32 (col0 x2)))
/-- Each triplet's number b: the entry of the class's slot. -/
def betaOf (x1 : IVec S8192 32) (x2 : IVec S131072x3 32) (x3 : FVec F S1000 .f32) : FVec F S131072 .f32 :=
  Host.gather gather_S1000_S131072x1_S131072_n_0_n_n_0_1_1 x3
    (broadcastInDim S131072x1 ![0] bcast_S131072_S131072x1_0 (wrap 1000#32 (classOf x1 x2)))

/-- The region finds the table re-typed (at the extended reals: unchanged). -/
theorem V_table (c : Dev nD) :
    (V m c main_v17 : Vec F S8192x512 .bf16) = truncf .bf16 (m ((c : Thread nD τ).loc main_arg0)) bitsLt_bf16_f32 := by
  show StableHlo.after hostOps0 (fun b => m (c, b)) (Proc.devRef .tc main_v17) = _
  after_results

/-- The region finds the numbers b as a column. -/
theorem V_beta (c : Dev nD) :
    (V m c main_v16 : Vec F S131072x1 .f32)
      = shapeCast S131072x1 (betaOf (F := F) (m ((c : Thread nD τ).loc main_arg1)) (m ((c : Thread nD τ).loc main_arg2))
          (m ((c : Thread nD τ).loc main_arg3))) shapeCasts_S131072_S131072x1 := by
  show StableHlo.after hostOps0 (fun b => m (c, b)) (Proc.devRef .tc main_v16) = _
  after_results_simp
  unfold betaOf classOf wrap col0
  rfl

/-- The closing host operations, of the two accumulator arrays. -/
def finishTerm (s cnt : FVec F S2x1x1 .f32) : FVec F S_ .f32 :=
  select
    (cmpf (F := F) .oeq (Host.reduceAdd cnt (constant S_ .f32 0x00000000#32) reducesTo_S2x1x1_S_d0_1_2 h_S_) (constant S_ .f32 0x00000000#32))
    (Host.reduceAdd s (constant S_ .f32 0x00000000#32) reducesTo_S2x1x1_S_d0_1_2 h_S_)
    (Host.divf (Host.reduceAdd s (constant S_ .f32 0x00000000#32) reducesTo_S2x1x1_S_d0_1_2 h_S_)
      (maximumf (Host.reduceAdd cnt (constant S_ .f32 0x00000000#32) reducesTo_S2x1x1_S_d0_1_2 h_S_) (constant S_ .f32 0x3F800000#32)))

set_option maxHeartbeats 1000000 in
/-- The program's result: the closing operations applied to what the region leaves in its two result arrays. -/
theorem tail_result (c : Dev nD) :
    Pipeline.afterTail₀ cfgs (dats m) 0 (V0 m) [hostOps1, hostOps1_1] c main_v24
      = finishTerm (F := F) ((dats m 0 c).arrAt 3 cfg0.N) ((dats m 0 c).arrAt 4 cfg0.N) := by
  unfold Pipeline.afterTail₀
  simp only [hostOps1, hostOps1_1, List.flatten_cons, List.flatten_nil, List.append_nil, List.cons_append, List.nil_append]
  generalize hW : Pipeline.withArrays (cfgs 0).spec c (V0 m c) (fun w => (dats m 0 c).arrAt w (cfgs 0).N) = W
  after_results
  have e0 : W (Proc.devRef .tc main_v18_0) = (dats m 0 c).arrAt 3 cfg0.N := by
    rw [← hW]; exact Pipeline.withArrays_arr spec0 launch0.win.arr_inj c _ _ 3
  have e1 : W (Proc.devRef .tc main_v18_1) = (dats m 0 c).arrAt 4 cfg0.N := by
    rw [← hW]; exact Pipeline.withArrays_arr spec0 launch0.win.arr_inj c _ _ 4
  rw [← e0, ← e1]
  rfl

end Cert.KernelIdeal.HostSide

end
-- ==== Proof.Bridge.lean ====
/-
  Where the two programs' host operations meet.

  Both programs compute the per-triplet number b by the same chain of host operations (anchor column, wrap, class
  lookup, wrap, lookup of b): the two printed terms are one function. And the kernel program's closing operations, of
  two arrays with one entry per half of the grid, are the specification's closing mean of the arrays' sums.
-/
import proofs.«408964_j12395275616919_3_alg».proof.Proof.KHost
import proofs.«408964_j12395275616919_3_alg».proof.Proof.RefRead
import proofs.«408964_j12395275616919_3_alg».proof.Proof.TripletSpec
import Idealize.ShloMosaic.PureOps.Ideal.Laws
import Idealize.ShloMosaic.Lib.ValueIdx
import Idealize.ShloMosaic.Lib.IdealHost

noncomputable section

open Idealize.ShloMosaic Idealize.ShloMosaic.ValueIdx

namespace Cert.Bridge

open Cert.Triplet

/-- The two programs' records of the class gather are one record. -/
theorem gatherClass_eq :
    Cert.KernelIdeal.gather_S8192_S131072x1_S131072_n_0_n_n_0_1_1 = Cert.ReferenceIdeal.gather_S8192_S131072x1_S131072_n_0_n_n_0_1_1 := rfl

/-- The two programs' records of the gather of b are one record. -/
theorem gatherBeta_eq :
    Cert.KernelIdeal.gather_S1000_S131072x1_S131072_n_0_n_n_0_1_1 = Cert.ReferenceIdeal.gather_S1000_S131072x1_S131072_n_0_n_n_0_1_1 := rfl

/-- At any float family the two chains are the same term. -/
theorem beta_eq' {F : FTy → Type} [FloatOps F] (x1 : IVec Cert.KernelIdeal.S8192 32) (x2 : IVec Cert.KernelIdeal.S131072x3 32)
    (x3 : FVec F Cert.KernelIdeal.S1000 .f32) :
    Cert.KernelIdeal.HostSide.betaOf (F := F) x1 x2 x3 = Cert.ReferenceIdeal.Read.val_main_v54 (F := F) x1 x2 x3 := by
  unfold Cert.KernelIdeal.HostSide.betaOf Cert.KernelIdeal.HostSide.classOf Cert.KernelIdeal.HostSide.wrap
    Cert.KernelIdeal.HostSide.col0
  unfold Cert.ReferenceIdeal.Read.val_main_v54 Cert.ReferenceIdeal.Read.val_main_v53 Cert.ReferenceIdeal.Read.val_main_v52
    Cert.ReferenceIdeal.Read.val_main_v51 Cert.ReferenceIdeal.Read.val_main_v50 Cert.ReferenceIdeal.Read.val_main_c_11
    Cert.ReferenceIdeal.Read.val_main_v49 Cert.ReferenceIdeal.Read.val_main_v48 Cert.ReferenceIdeal.Read.val_main_c_10
    Cert.ReferenceIdeal.Read.val_main_v47 Cert.ReferenceIdeal.Read.val_main_v46 Cert.ReferenceIdeal.Read.val_main_v45
    Cert.ReferenceIdeal.Read.val_main_v44 Cert.ReferenceIdeal.Read.val_main_v43 Cert.ReferenceIdeal.Read.val_main_c_9
    Cert.ReferenceIdeal.Read.val_main_v42 Cert.ReferenceIdeal.Read.val_main_v41 Cert.ReferenceIdeal.Read.val_main_c_8
    Cert.ReferenceIdeal.Read.val_main_v40 Cert.ReferenceIdeal.Read.val_main_v39
  rw [gatherClass_eq, gatherBeta_eq]

/-- The kernel program's chain for the numbers b is the reference's. -/
theorem beta_eq (x1 : IVec Cert.KernelIdeal.S8192 32) (x2 : IVec Cert.KernelIdeal.S131072x3 32) (x3 : FVec Ideal Cert.KernelIdeal.S1000 .f32) :
    Cert.KernelIdeal.HostSide.betaOf (F := Ideal) x1 x2 x3 = Cert.ReferenceIdeal.Read.val_main_v54 (F := Ideal) x1 x2 x3 := by
  exact beta_eq' x1 x2 x3

/-- A sum over the indices of a [2, 1, 1] array is the sum of its two entries. -/
theorem sum_halves (f : Cert.KernelIdeal.S2x1x1.Idx → EReal) :
    ∑ j : Cert.KernelIdeal.S2x1x1.Idx, f j = ∑ h : Fin 2, f (ix3 h (0 : Fin 1) (0 : Fin 1)) := by
  let e : Fin 2 ≃ Cert.KernelIdeal.S2x1x1.Idx :=
    { toFun := fun h => ix3 h (0 : Fin 1) (0 : Fin 1)
      invFun := fun j => j 0
      left_inv := fun _ => rfl
      right_inv := fun j => by
        funext a
        match a with
        | ⟨0, _⟩ => rfl
        | ⟨1, h1⟩ => exact (Fin.eq_zero (j ⟨1, h1⟩ : Fin 1)).symm
        | ⟨2, h2⟩ => exact (Fin.eq_zero (j ⟨2, h2⟩ : Fin 1)).symm }
  exact (Equiv.sum_comp e f).symm

/-- The host's sum of a [2, 1, 1] array from zero is the sum of its two entries. -/
theorem reduce_halves (x : FVec Ideal Cert.KernelIdeal.S2x1x1 .f32) (j : Cert.KernelIdeal.S_.Idx) :
    Host.reduceAdd (F := Ideal) x (constant (F := Ideal) Cert.KernelIdeal.S_ .f32 0x00000000#32)
        Cert.KernelIdeal.Facts₀.reducesTo_S2x1x1_S_d0_1_2 Cert.KernelIdeal.Facts₀.h_S_ j
      = ∑ h : Fin 2, x (ix3 h (0 : Fin 1) (0 : Fin 1)) := by
  have h : Host.reduceAdd (F := Ideal) x (constant (F := Ideal) Cert.KernelIdeal.S_ .f32 0x00000000#32)
        Cert.KernelIdeal.Facts₀.reducesTo_S2x1x1_S_d0_1_2 Cert.KernelIdeal.Facts₀.h_S_ j
      = (0 : EReal) + ∑ i : Cert.KernelIdeal.S2x1x1.Idx, x i := by
    simp only [Host.reduceAdd, Ideal.hostReduceAdd_def]
    refine (Ideal.hostReduceAdd_total Cert.KernelIdeal.Facts₀.reducesTo_S2x1x1_S_d0_1_2 (fun b => b.elim0) x _ j).trans ?_
    exact congrArg (· + _) Ideal.ofBits_zero_f32
  rw [h, zero_add, sum_halves]

/-- The closing operations, of two arrays with one entry per half: the mean of the specification, of the arrays' sums. -/
theorem finish_eq (s cnt : FVec Ideal Cert.KernelIdeal.S2x1x1 .f32) :
    Cert.KernelIdeal.HostSide.finishTerm (F := Ideal) s cnt
      = fun _ => finish (∑ h : Fin 2, s (ix3 h (0 : Fin 1) (0 : Fin 1))) (∑ h : Fin 2, cnt (ix3 h (0 : Fin 1) (0 : Fin 1))) := by
  funext j
  unfold Cert.KernelIdeal.HostSide.finishTerm
  show Scalar.select (Ideal.cmp .oeq (Host.reduceAdd (F := Ideal) cnt _ _ _ j) (Ideal.ofBits .f32 0x00000000#32))
      (Host.reduceAdd (F := Ideal) s _ _ _ j)
      (Ideal.div (Host.reduceAdd (F := Ideal) s _ _ _ j)
        (max (Host.reduceAdd (F := Ideal) cnt _ _ _ j) (Ideal.ofBits .f32 0x3F800000#32))) = _
  rw [reduce_halves s j, reduce_halves cnt j, Ideal.ofBits_zero_f32, Ideal.ofBits_one_f32]
  rfl

end Cert.Bridge

end
-- ==== Proof.KResult.lean ====
/-
  The kernel program's run, read: its result is the specification's loss.

  After the region the two result arrays hold, per half of the grid, the sums of the half's tiles' losses and counts;
  the closing host operations sum the two entries of each and take the mean over the active triplets: the loss of
  the table, the triplet list and the per-triplet numbers b as the region finds them. Those are the launch arrays:
  the triplet list untouched, the table re-typed (unchanged at the extended reals), b the host chain's column.
-/
import proofs.«408964_j12395275616919_3_alg».proof.Proof.KSums
import proofs.«408964_j12395275616919_3_alg».proof.Proof.KFinal
import proofs.«408964_j12395275616919_3_alg».proof.Proof.KHost
import proofs.«408964_j12395275616919_3_alg».proof.Proof.Bridge
import proofs.«408964_j12395275616919_3_alg».proof.Proof.RefValue
import proofs.«408964_j12395275616919_3_alg».proof.Proof.LibColumn
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Triplet Cert.KernelIdeal.Accum

variable (m : (ℓ : Loc nD τ sig) → Buf (Elt Ideal) ℓ) (ρ : Dev nD → PrngReg)

/-- The launch arrays, at their literal types. -/
abbrev embL (c : Dev nD) : Vec Ideal S8192x512 .f32 := m ((c : Thread nD τ).loc main_arg0)
abbrev clsL (c : Dev nD) : Vec Ideal S8192 .i32 := m ((c : Thread nD τ).loc main_arg1)
abbrev tripL (c : Dev nD) : Vec Ideal S131072x3 .i32 := m ((c : Thread nD τ).loc main_arg2)
abbrev betaL (c : Dev nD) : Vec Ideal S1000 .f32 := m ((c : Thread nD τ).loc main_arg3)

theorem tripA_eq (c : Dev nD) : tripA m c = tripL m c := V_main_arg2 m c

theorem tabA_eq (c : Dev nD) : tabA m c = embL m c := by
  show (V m c main_v17 : Vec Ideal S8192x512 .bf16) = _
  rw [HostSide.V_table m c]
  rfl

theorem bptA_eq (c : Dev nD) :
    bptA m c = Cert.ReferenceIdeal.RefValue.bpt (clsL m c) (tripL m c) (betaL m c) := by
  funext i
  unfold bptA Cert.ReferenceIdeal.RefValue.bpt
  show (V m c main_v16 : Vec Ideal S131072x1 .f32) (ix2 i (0 : Fin 1)) = _
  rw [HostSide.V_beta m c, Cert.Attn.Column.shapeCast_a_a1_apply, Cert.Bridge.beta_eq]

/-- The hypotheses on the arrays the region finds, from the same facts about the launch arrays. -/
theorem good_of (c : Dev nD)
    (hfin : ∀ i, ∃ e : ℝ, embL m c i = ((e : ℝ) : EReal))
    (hrange : ∀ (i : Fin 131072) (j : Fin 3), 0 ≤ (tripL m c (ix2 i j)).toInt ∧ (tripL m c (ix2 i j)).toInt < 8192) :
    Good m c :=
  ⟨fun i j => by rw [tripA_eq m c]; exact hrange i j, fun i => by rw [tabA_eq m c]; exact hfin i⟩

/-- The program's result as the region's post states it: the loss. -/
theorem result (c : Dev nD) (hg : Good m c) :
    Pipeline.afterTail₀ cfgs (dats m) 0 (V0 m) [hostOps1, hostOps1_1] c main_v24
      = fun _ => loss (embL m c) (tripL m c) (Cert.ReferenceIdeal.RefValue.bpt (clsL m c) (tripL m c) (betaL m c)) := by
  rw [HostSide.tail_result m c,
    Final.final3 m c (resL m c) (fun t h => outs_last1 m c t h),
    Final.final4 m c (resC m c) (fun t h => outs_last2 m c t h),
    Cert.Bridge.finish_eq, sum_resL m c hg, sum_resC m c hg, tabA_eq m c, tripA_eq m c, bptA_eq m c]
  rfl

/-- Every weakly fair execution terminates with the result at the loss and the arguments unchanged. -/
theorem run
    (hfin : ∀ c i, ∃ e : ℝ, embL m c i = ((e : ℝ) : EReal))
    (hrange : ∀ c (i : Fin 131072) (j : Fin 3), 0 ≤ (tripL m c (ix2 i j)).toInt ∧ (tripL m c (ix2 i j)).toInt < 8192) :
    θ_run defs (onTc (τ := τ) (main (F := Ideal))) ⟨m, fun _ => 0, ρ⟩ (fun r => ∀ c : Dev nD,
      r.2.mem ((c.tc : Thread nD τ).loc main_v24)
          = (fun _ => loss (embL m c) (tripL m c) (Cert.ReferenceIdeal.RefValue.bpt (clsL m c) (tripL m c) (betaL m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v24 (Pipeline.mem_restRefs_of main_v24 (by decide) (by decide))).trans
        (result m c (good_of m c (hfin c) (hrange c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c))⟩)
    (run_main m ρ)

end Cert.KernelIdeal.Result

end
-- ==== Proof.lean ====
/-
  The certificate's claim: a margin loss over anchor / positive / negative triplets, computed by a kernel that gathers
  table rows through one-hot matrices, equals the reference's direct gathers.

  Both programs compute, for 131072 triplets (a, p, n) of rows of an 8192 x 512 table E and a number b per triplet
  (looked up through the anchor's class),  pos = max (|E[a] - E[p]| - b + margin) 0  and  neg = max (b - |E[a] - E[n]| + margin) 0
  with |u| = sqrt (sum u^2 + eps), the total of pos + neg, the number of triplets with pos > 0 or neg > 0, and return
  the total divided by  max count 1  (the total itself when the count is 0). The reference gathers the rows; the kernel
  multiplies, tile by tile of 256 triplets, the matrix of one-hot differences  onehot(a) - onehot(p)  (and  - onehot(n))
  by the table, accumulates the tiles' losses and counts per half of its grid, and sums the two halves on the host.
  The two agree on the extended reals when every table entry is a real number (so that a row's one-hot combination
  is the difference of two rows) and every triplet entry names a table row,  0 <= t < 8192  (a one-hot row of an
  index outside the table is zero, where the reference wraps a negative index and clamps a large one): the
  precondition states both. The per-triplet numbers b come from the same chain of host operations in both programs
  and are never opened. Sums are only re-associated: per tile, per half, and the two halves.

  The frames of the two kernel programs are the generated frame certificates; the reference's frame is its run with
  the result dropped. The idealization rewrote nothing.
-/
import proofs.«408964_j12395275616919_3_alg».proof.Defs
import proofs.«408964_j12395275616919_3_alg».proof.Proof.Gen.Kernel
import proofs.«408964_j12395275616919_3_alg».proof.Proof.Gen.Kernel.Skeleton
import proofs.«408964_j12395275616919_3_alg».proof.Proof.Gen.Kernel.Launch
import proofs.«408964_j12395275616919_3_alg».proof.Proof.Gen.Kernel.Points
import proofs.«408964_j12395275616919_3_alg».proof.Proof.Gen.Kernel.Frame
import proofs.«408964_j12395275616919_3_alg».proof.Proof.Gen.KernelIdeal
import proofs.«408964_j12395275616919_3_alg».proof.Proof.Gen.KernelIdeal.Skeleton
import proofs.«408964_j12395275616919_3_alg».proof.Proof.Gen.KernelIdeal.Launch
import proofs.«408964_j12395275616919_3_alg».proof.Proof.Gen.KernelIdeal.Points
import proofs.«408964_j12395275616919_3_alg».proof.Proof.Gen.KernelIdeal.Frame
import proofs.«408964_j12395275616919_3_alg».proof.Proof.Gen.ReferenceIdeal
import proofs.«408964_j12395275616919_3_alg».proof.Proof.RefRun
import proofs.«408964_j12395275616919_3_alg».proof.Proof.RefRead
import proofs.«408964_j12395275616919_3_alg».proof.Proof.Gen.Pre_finite_inputs
import proofs.«408964_j12395275616919_3_alg».proof.Proof.PreDecode
import proofs.«408964_j12395275616919_3_alg».proof.Proof.RefValue
import proofs.«408964_j12395275616919_3_alg».proof.Proof.KResult
import Idealize.ShloMosaic.Adequacy
import Idealize.ShloMosaic.Init

noncomputable section

namespace Cert.Proof

open Idealize.ShloMosaic Idealize.SL.Sem

/-- The reference terminates with its arguments unchanged: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Under the precondition both programs end at the specification's loss of the launch arrays. -/
theorem algebraic : Cert.algebraic_KernelIdeal_ReferenceIdeal := by
  intro m ρ m' ρ' hpre hagree
  have hd := fun c => Cert.PreDecode.decode _ _ _ _ (hpre c)
  refine ⟨fun c => fun _ => Cert.Triplet.loss (Cert.KernelIdeal.Result.embL m c) (Cert.KernelIdeal.Result.tripL m c)
      (Cert.ReferenceIdeal.RefValue.bpt (Cert.KernelIdeal.Result.clsL m c) (Cert.KernelIdeal.Result.tripL m c) (Cert.KernelIdeal.Result.betaL m c)),
    Cert.KernelIdeal.Result.run m ρ (fun c => (hd c).1) (fun c => (hd c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, (hagree c).1, (hagree c).2.1, (hagree c).2.2.1, (hagree c).2.2.2]
  exact Cert.ReferenceIdeal.RefValue.result_eq _ _ _ _ (hd c).2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
